-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part4 {F : FTy → Type} [FloatOps F] (main_v63 : IVec S_ 1) (main_v65 : IVec S640000 1) (main_v67 : IVec S640000 1) : IVec S_ 1 :=
  let main_v68 : IVec S640000 1 := andi main_v65 main_v67
  let main_c_26 : IVec S_ 1 := constantI S_ 1 1#1
  let main_v69 : IVec S_ 1 := (fun x v => Host.reduce IntOp.andi x v reducesTo_S640000_S_d0 h_S_) main_v68 main_c_26
  let main_v70 : IVec S_ 1 := andi main_v63 main_v69
  main_v70

def fn_part3 {F : FTy → Type} [FloatOps F] (main_arg1 : IVec S640000 32) (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S640000 32 := broadcastInDim S640000 ![] bcast_S_S640000 main_c_24
  let main_v65 : IVec S640000 1 := cmpi .sge main_arg1 main_v64
  let main_c_25 : IVec S_ 32 := constantI S_ 32 50000#32
  let main_v66 : IVec S640000 32 := broadcastInDim S640000 ![] bcast_S_S640000 main_c_25
  let main_v67 : IVec S640000 1 := cmpi .slt main_arg1 main_v66
  fn_part4 (F := F) main_v63 main_v65 main_v67

def fn_part2 {F : FTy → Type} [FloatOps F] (main_arg1 : IVec S640000 32) (main_arg9 : FVec F S128 .f32) (main_arg10 : FVec F S128 .f32) (main_arg11 : FVec F S128x128 .f32) (main_arg12 : FVec F S128 .f32) (main_arg13 : FVec F S128 .f32) (main_arg14 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg13 main_arg14 main_v48 main_v49 main_v50

def fn_part1 {F : FTy → Type} [FloatOps F] (main_arg1 : IVec S640000 32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S50000x128 .f32) (main_arg1 : IVec S640000 32) (main_arg2 : IVec S640000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_arg12 main_arg13 main_arg14 main_v13 main_v16
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S50000 : Shape := ⟨1, ![50000]⟩
abbrev S640000x1 : Shape := ⟨2, ![640000, 1]⟩
abbrev S1000x128 : Shape := ⟨2, ![1000, 128]⟩
abbrev S1 : Shape := ⟨1, ![1]⟩
abbrev S1x1 : Shape := ⟨2, ![1, 1]⟩
abbrev S640000x128 : Shape := ⟨2, ![640000, 128]⟩
abbrev S50000x1 : Shape := ⟨2, ![50000, 1]⟩
abbrev S1x128 : Shape := ⟨2, ![1, 128]⟩
abbrev S1000 : Shape := ⟨1, ![1000]⟩
abbrev S1000x1 : Shape := ⟨2, ![1000, 1]⟩

abbrev nBuf : Space → Nat
  | .hbm => 153
  | .vmem => 40
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S_, .f32⟩
  | 16 => ⟨S640000, .f32⟩
  | 17 => ⟨S_, .f32⟩
  | 18 => ⟨S50000, .f32⟩
  | 19 => ⟨S640000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000, .f32⟩
  | 43 => ⟨S640000, .f32⟩
  | 44 => ⟨S50000, .f32⟩
  | 45 => ⟨S50000x128, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S1, .i32⟩
  | 55 => ⟨S_, .i32⟩
  | 56 => ⟨S640000x1, .i32⟩
  | 57 => ⟨S640000x1, .i1⟩
  | 58 => ⟨S1x1, .i32⟩
  | 59 => ⟨S640000x1, .i32⟩
  | 60 => ⟨S640000x1, .i1⟩
  | 61 => ⟨S640000x1, .i1⟩
  | 62 => ⟨S_, .i1⟩
  | 63 => ⟨S640000, .i1⟩
  | 64 => ⟨S640000x128, .f32⟩
  | 65 => ⟨S640000x128, .i1⟩
  | 66 => ⟨S_, .f32⟩
  | 67 => ⟨S640000x128, .f32⟩
  | 68 => ⟨S640000x128, .f32⟩
  | 69 => ⟨S640000x1, .f32⟩
  | 70 => ⟨S640000x128, .f32⟩
  | 71 => ⟨S640000x128, .f32⟩
  | 72 => ⟨S_, .f32⟩
  | 73 => ⟨S50000x128, .f32⟩
  | 74 => ⟨S640000x1, .i32⟩
  | 75 => ⟨S50000x128, .f32⟩
  | 76 => ⟨S50000x1, .f32⟩
  | 77 => ⟨S50000x128, .f32⟩
  | 78 => ⟨S50000x128, .f32⟩
  | 79 => ⟨S50000x128, .f32⟩
  | 80 => ⟨S50000x128, .f32⟩
  | 81 => ⟨S50000x128, .f32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S1, .i32⟩
  | 91 => ⟨S_, .i32⟩
  | 92 => ⟨S640000x1, .i32⟩
  | 93 => ⟨S640000x1, .i1⟩
  | 94 => ⟨S1x1, .i32⟩
  | 95 => ⟨S640000x1, .i32⟩
  | 96 => ⟨S640000x1, .i1⟩
  | 97 => ⟨S640000x1, .i1⟩
  | 98 => ⟨S_, .i1⟩
  | 99 => ⟨S640000, .i1⟩
  | 100 => ⟨S640000x128, .f32⟩
  | 101 => ⟨S640000x128, .i1⟩
  | 102 => ⟨S_, .f32⟩
  | 103 => ⟨S640000x128, .f32⟩
  | 104 => ⟨S640000x128, .f32⟩
  | 105 => ⟨S640000x1, .f32⟩
  | 106 => ⟨S640000x128, .f32⟩
  | 107 => ⟨S640000x128, .f32⟩
  | 108 => ⟨S_, .f32⟩
  | 109 => ⟨S50000x128, .f32⟩
  | 110 => ⟨S640000x1, .i32⟩
  | 111 => ⟨S50000x128, .f32⟩
  | 112 => ⟨S50000x1, .f32⟩
  | 113 => ⟨S50000x128, .f32⟩
  | 114 => ⟨S50000x128, .f32⟩
  | 115 => ⟨S50000x128, .f32⟩
  | 116 => ⟨S50000x128, .f32⟩
  | 117 => ⟨S50000x128, .f32⟩
  | 118 => ⟨S_, .i32⟩
  | 119 => ⟨S640000, .i32⟩
  | 120 => ⟨S640000, .i1⟩
  | 121 => ⟨S_, .i32⟩
  | 122 => ⟨S640000, .i32⟩
  | 123 => ⟨S640000, .i32⟩
  | 124 => ⟨S640000, .i32⟩
  | 125 => ⟨S640000x1, .i32⟩
  | 126 => ⟨S1, .i32⟩
  | 127 => ⟨S_, .i32⟩
  | _ => ⟨S50000x128, .f32⟩

abbrev hbmTy0_1 (i : Nat) : BufTy := match i % 128 with
  | 0 => ⟨S640000x1, .i32⟩
  | 1 => ⟨S640000x1, .i1⟩
  | 2 => ⟨S1x1, .i32⟩
  | 3 => ⟨S640000x1, .i32⟩
  | 4 => ⟨S640000x1, .i1⟩
  | 5 => ⟨S640000x1, .i1⟩
  | 6 => ⟨S_, .i1⟩
  | 7 => ⟨S640000, .i1⟩
  | 8 => ⟨S640000x128, .f32⟩
  | 9 => ⟨S640000x128, .i1⟩
  | 10 => ⟨S_, .f32⟩
  | 11 => ⟨S640000x128, .f32⟩
  | 12 => ⟨S640000x128, .f32⟩
  | 13 => ⟨S640000x1, .f32⟩
  | 14 => ⟨S640000x128, .f32⟩
  | 15 => ⟨S640000x128, .f32⟩
  | 16 => ⟨S_, .f32⟩
  | 17 => ⟨S50000x128, .f32⟩
  | 18 => ⟨S640000x1, .i32⟩
  | 19 => ⟨S50000x128, .f32⟩
  | 20 => ⟨S50000x1, .f32⟩
  | 21 => ⟨S50000x128, .f32⟩
  | 22 => ⟨S50000x128, .f32⟩
  | 23 => ⟨S50000x128, .f32⟩
  | 24 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S128x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S128x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S1000x128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S1000x128, .f32⟩
  | .local _ .vmem, ⟨39, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_call0_cst : Ref sig .tc := ⟨.hbm, 66, rfl⟩
abbrev main_call0_v15 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_5 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_cst_6 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_call2_c : Ref sig .tc := ⟨.hbm, 118, rfl⟩
abbrev main_call2_v0 : Ref sig .tc := ⟨.hbm, 119, rfl⟩
abbrev main_call2_v1 : Ref sig .tc := ⟨.hbm, 120, rfl⟩
abbrev main_call2_c_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_c_1 : Ref sig .tc := ⟨.hbm, 126, rfl⟩
abbrev main_call2_c_2 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_c_3 : Ref sig .tc := ⟨.hbm, 134, rfl⟩
abbrev main_call2_v12 : Ref sig .tc := ⟨.hbm, 135, rfl⟩
abbrev main_call2_v13 : Ref sig .tc := ⟨.hbm, 136, rfl⟩
abbrev main_call2_v14 : Ref sig .tc := ⟨.hbm, 137, rfl⟩
abbrev main_call2_cst : Ref sig .tc := ⟨.hbm, 138, rfl⟩
abbrev main_call2_v15 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_cst_7 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S1000x128_S1000x128 : S1000x128.ShapeCasts S1000x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  dot_S1000x128_S128x128_S1000x128_1_0_0_1_n_n_wf : DotDims.WF S1000x128 S128x128 S1000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S50000x128.size a
  hwx1_4 : ∀ i : grid1.Coords, EltTy.bits .f32 = 32 ∨ (Rect.block (s := S50000x128) S1000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S50000x128.size a
  hwx2_2 : ∀ i : grid2.Coords, EltTy.bits .f32 = 32 ∨ (Rect.block (s := S50000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S50000x128.size a
  hwx3_1 : ∀ i : grid3.Coords, EltTy.bits .f32 = 32 ∨ (Rect.block (s := S50000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S50000x128.size a
  hwx3_5 : ∀ i : grid3.Coords, EltTy.bits .f32 = 32 ∨ (Rect.block (s := S50000x128) S1000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S50000x128.size a
  hwx4_2 : ∀ i : grid4.Coords, EltTy.bits .f32 = 32 ∨ (Rect.block (s := S50000x128) S1000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S50000x128.size a
  hwx5_0 : ∀ i : grid5.Coords, EltTy.bits .f32 = 32 ∨ (Rect.block (s := S50000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x128.size a ≤ S50000x128.size a
  hwx5_1 : ∀ i : grid5.Coords, EltTy.bits .f32 = 32 ∨ (Rect.block (s := S50000x128) S1000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x128.size a ≤ S50000x128.size a
  hwx5_5 : ∀ i : grid5.Coords, EltTy.bits .f32 = 32 ∨ (Rect.block (s := S50000x128) S1000x128.size (cc5_transform_5 i) (hinb5_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S1000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v48) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S1000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S1000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg13) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg14) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v61) S1000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩

abbrev nBuf : Space → Nat
  | .hbm => 275
  | .vmem => 0
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S50000x128, .f32⟩
  | 16 => ⟨S_, .f32⟩
  | 17 => ⟨S640000, .f32⟩
  | 18 => ⟨S_, .f32⟩
  | 19 => ⟨S50000, .f32⟩
  | 20 => ⟨S640000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S640000, .i32⟩
  | 28 => ⟨S640000, .i1⟩
  | 29 => ⟨S_, .i32⟩
  | 30 => ⟨S640000, .i32⟩
  | 31 => ⟨S640000, .i32⟩
  | 32 => ⟨S640000, .i32⟩
  | 33 => ⟨S640000x1, .i32⟩
  | 34 => ⟨S640000x128, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000, .f32⟩
  | 44 => ⟨S_, .i32⟩
  | 45 => ⟨S640000, .i32⟩
  | 46 => ⟨S640000, .i1⟩
  | 47 => ⟨S_, .i32⟩
  | 48 => ⟨S640000, .i32⟩
  | 49 => ⟨S640000, .i32⟩
  | 50 => ⟨S640000, .i32⟩
  | 51 => ⟨S640000x1, .i32⟩
  | 52 => ⟨S640000, .f32⟩
  | 53 => ⟨S640000, .f32⟩
  | 54 => ⟨S640000x1, .f32⟩
  | 55 => ⟨S640000x128, .f32⟩
  | 56 => ⟨S640000x128, .f32⟩
  | 57 => ⟨S_, .f32⟩
  | 58 => ⟨S50000x128, .f32⟩
  | 59 => ⟨S640000x1, .i32⟩
  | 60 => ⟨S50000x128, .f32⟩
  | 61 => ⟨S50000, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000, .f32⟩
  | 71 => ⟨S50000x1, .f32⟩
  | 72 => ⟨S_, .f32⟩
  | 73 => ⟨S50000x1, .f32⟩
  | 74 => ⟨S50000x1, .f32⟩
  | 75 => ⟨S50000x128, .f32⟩
  | 76 => ⟨S50000x128, .f32⟩
  | 77 => ⟨S50000x128, .f32⟩
  | 78 => ⟨S_, .f32⟩
  | 79 => ⟨S50000, .f32⟩
  | 80 => ⟨S50000x1, .f32⟩
  | 81 => ⟨S_, .f32⟩
  | 82 => ⟨S50000x1, .f32⟩
  | 83 => ⟨S50000x1, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x1, .f32⟩
  | 91 => ⟨S50000x1, .f32⟩
  | 92 => ⟨S50000x1, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S_, .f32⟩
  | 103 => ⟨S640000, .f32⟩
  | 104 => ⟨S_, .f32⟩
  | 105 => ⟨S50000, .f32⟩
  | 106 => ⟨S640000x1, .i32⟩
  | 107 => ⟨S50000, .f32⟩
  | 108 => ⟨S_, .f32⟩
  | 109 => ⟨S50000, .f32⟩
  | 110 => ⟨S50000, .f32⟩
  | 111 => ⟨S50000, .f32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000x128, .f32⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S50000x128, .f32⟩

abbrev hbmTy0_1 (i : Nat) : BufTy := match i % 128 with
  | 0 => ⟨S640000x1, .i32⟩
  | 1 => ⟨S640000, .f32⟩
  | 2 => ⟨S_, .i32⟩
  | 3 => ⟨S640000, .i32⟩
  | 4 => ⟨S640000, .i1⟩
  | 5 => ⟨S_, .i32⟩
  | 6 => ⟨S640000, .i32⟩
  | 7 => ⟨S640000, .i32⟩
  | 8 => ⟨S640000, .i32⟩
  | 9 => ⟨S640000x1, .i32⟩
  | 10 => ⟨S640000, .f32⟩
  | 11 => ⟨S640000, .f32⟩
  | 12 => ⟨S640000x1, .f32⟩
  | 13 => ⟨S640000x128, .f32⟩
  | 14 => ⟨S640000x128, .f32⟩
  | 15 => ⟨S_, .f32⟩
  | 16 => ⟨S50000x128, .f32⟩
  | 17 => ⟨S640000x1, .i32⟩
  | 18 => ⟨S50000x128, .f32⟩
  | 19 => ⟨S50000, .f32⟩
  | 20 => ⟨S50000x1, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000, .f32⟩
  | 29 => ⟨S50000x1, .f32⟩
  | 30 => ⟨S_, .f32⟩
  | 31 => ⟨S50000x1, .f32⟩
  | 32 => ⟨S50000x1, .f32⟩
  | 33 => ⟨S50000x128, .f32⟩
  | 34 => ⟨S50000x128, .f32⟩
  | 35 => ⟨S50000x128, .f32⟩
  | 36 => ⟨S_, .f32⟩
  | 37 => ⟨S50000, .f32⟩
  | 38 => ⟨S50000x1, .f32⟩
  | 39 => ⟨S_, .f32⟩
  | 40 => ⟨S50000x1, .f32⟩
  | 41 => ⟨S50000x1, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x1, .f32⟩
  | 49 => ⟨S50000x1, .f32⟩
  | 50 => ⟨S50000x1, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x128, .f32⟩
  | 60 => ⟨S50000x128, .f32⟩
  | 61 => ⟨S_, .f32⟩
  | 62 => ⟨S640000, .f32⟩
  | 63 => ⟨S_, .f32⟩
  | 64 => ⟨S50000, .f32⟩
  | 65 => ⟨S640000x1, .i32⟩
  | 66 => ⟨S50000, .f32⟩
  | 67 => ⟨S_, .f32⟩
  | 68 => ⟨S50000, .f32⟩
  | 69 => ⟨S50000, .f32⟩
  | 70 => ⟨S50000, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x128, .f32⟩
  | 80 => ⟨S_, .i32⟩
  | 81 => ⟨S640000, .i32⟩
  | 82 => ⟨S640000, .i1⟩
  | 83 => ⟨S_, .i32⟩
  | 84 => ⟨S640000, .i32⟩
  | 85 => ⟨S640000, .i32⟩
  | 86 => ⟨S640000, .i32⟩
  | 87 => ⟨S640000x1, .i32⟩
  | 88 => ⟨S640000, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S640000, .f32⟩
  | 98 => ⟨S640000, .f32⟩
  | 99 => ⟨S640000x1, .f32⟩
  | 100 => ⟨S640000x128, .f32⟩
  | 101 => ⟨S640000x128, .f32⟩
  | 102 => ⟨S_, .f32⟩
  | 103 => ⟨S50000x128, .f32⟩
  | 104 => ⟨S640000x1, .i32⟩
  | 105 => ⟨S50000x128, .f32⟩
  | 106 => ⟨S50000, .f32⟩
  | 107 => ⟨S50000x1, .f32⟩
  | 108 => ⟨S50000x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000, .f32⟩
  | 116 => ⟨S50000x1, .f32⟩
  | 117 => ⟨S_, .f32⟩
  | 118 => ⟨S50000x1, .f32⟩
  | 119 => ⟨S50000x1, .f32⟩
  | 120 => ⟨S50000x128, .f32⟩
  | 121 => ⟨S50000x128, .f32⟩
  | 122 => ⟨S50000x128, .f32⟩
  | 123 => ⟨S_, .f32⟩
  | 124 => ⟨S50000, .f32⟩
  | 125 => ⟨S50000x1, .f32⟩
  | 126 => ⟨S_, .f32⟩
  | 127 => ⟨S50000x1, .f32⟩
  | _ => ⟨S50000x128, .f32⟩

abbrev hbmTy0_2 (i : Nat) : BufTy := match i % 128 with
  | 0 => ⟨S50000x1, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x1, .f32⟩
  | 8 => ⟨S50000x1, .f32⟩
  | 9 => ⟨S50000x1, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call0_cst : Ref sig .tc := ⟨.hbm, 98, rfl⟩
abbrev main_call0_v0 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_16 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_18 : Ref sig .tc := ⟨.hbm, 121, rfl⟩
abbrev main_v84 : Ref sig .tc := ⟨.hbm, 122, rfl⟩
abbrev main_v85 : Ref sig .tc := ⟨.hbm, 123, rfl⟩
abbrev main_c_19 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_20 : Ref sig .tc := ⟨.hbm, 130, rfl⟩
abbrev main_v91 : Ref sig .tc := ⟨.hbm, 131, rfl⟩
abbrev main_v92 : Ref sig .tc := ⟨.hbm, 132, rfl⟩
abbrev main_c_21 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_22 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_23 : Ref sig .tc := ⟨.hbm, 155, rfl⟩
abbrev main_v113 : Ref sig .tc := ⟨.hbm, 156, rfl⟩
abbrev main_v114 : Ref sig .tc := ⟨.hbm, 157, rfl⟩
abbrev main_cst_24 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_25 : Ref sig .tc := ⟨.hbm, 164, rfl⟩
abbrev main_v120 : Ref sig .tc := ⟨.hbm, 165, rfl⟩
abbrev main_v121 : Ref sig .tc := ⟨.hbm, 166, rfl⟩
abbrev main_cst_26 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_27 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_call1_cst : Ref sig .tc := ⟨.hbm, 184, rfl⟩
abbrev main_call1_v0 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_28 : Ref sig .tc := ⟨.hbm, 189, rfl⟩
abbrev main_v140 : Ref sig .tc := ⟨.hbm, 190, rfl⟩
abbrev main_cst_29 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_30 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_c_31 : Ref sig .tc := ⟨.hbm, 199, rfl⟩
abbrev main_v147 : Ref sig .tc := ⟨.hbm, 200, rfl⟩
abbrev main_v148 : Ref sig .tc := ⟨.hbm, 201, rfl⟩
abbrev main_c_32 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_c_33 : Ref sig .tc := ⟨.hbm, 208, rfl⟩
abbrev main_v154 : Ref sig .tc := ⟨.hbm, 209, rfl⟩
abbrev main_v155 : Ref sig .tc := ⟨.hbm, 210, rfl⟩
abbrev main_c_34 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_c_35 : Ref sig .tc := ⟨.hbm, 217, rfl⟩
abbrev main_v161 : Ref sig .tc := ⟨.hbm, 218, rfl⟩
abbrev main_v162 : Ref sig .tc := ⟨.hbm, 219, rfl⟩
abbrev main_c_36 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_cst_37 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_cst_38 : Ref sig .tc := ⟨.hbm, 242, rfl⟩
abbrev main_v183 : Ref sig .tc := ⟨.hbm, 243, rfl⟩
abbrev main_v184 : Ref sig .tc := ⟨.hbm, 244, rfl⟩
abbrev main_cst_39 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst_40 : Ref sig .tc := ⟨.hbm, 251, rfl⟩
abbrev main_v190 : Ref sig .tc := ⟨.hbm, 252, rfl⟩
abbrev main_v191 : Ref sig .tc := ⟨.hbm, 253, rfl⟩
abbrev main_cst_41 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_cst_42 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_call2_cst : Ref sig .tc := ⟨.hbm, 271, rfl⟩
abbrev main_call2_v0 : Ref sig .tc := ⟨.hbm, 272, rfl⟩
abbrev main_v207 : Ref sig .tc := ⟨.hbm, 273, rfl⟩
abbrev main_v208 : Ref sig .tc := ⟨.hbm, 274, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  dot_S50000x128_S128x128_S50000x128_1_0_0_1_n_n_wf : DotDims.WF S50000x128 S128x128 S50000x128 [1] [0] [0] [1] [] []
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  gather_S50000_S640000x1_S640000_n_0_n_n_0_1_1_wf : GatherDims.WF S50000 S640000x1 S640000 [] [0] [] [0] [] 1 ![1]
  scatter_S50000x128_S640000x1_S640000x128_1_0_0_1_wf : ScatterDims.WF S50000x128 S640000x1 S640000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.Layers.lean ====
/-
  The three-layer graph convolution as whole-array functions, for any float family.  Every function is spelt with the host
  operations both programs apply, so that each program's composed term is an instance of these by unfolding:
  `dinv` (the inverse square root of one plus the number of edges into a node), `wrap` (a negative index counted from the
  end), `edgeScale` (the product of the two end points' `dinv`), `agg` (the messages gathered at the sources, scaled,
  added up at the targets, plus the node's own row scaled by `dinv²`), `lnrelu` (bias, LayerNorm over the 128 columns,
  scale, shift, rectifier), `layer1` (one layer), `layerRes` (one layer plus its input), `net` (the three layers).
-/
import proofs.«414224_j34711925686444_1_alg».proof.ReferenceIdeal

noncomputable section

namespace Cert.Layers

open Idealize.ShloMosaic Cert.ReferenceIdeal Cert.ReferenceIdeal.Facts₀

variable {F : FTy → Type} [FloatOps F] [Cert.ReferenceIdeal.Facts₀]

/-- `dinv = rsqrt (1 + number of edges whose target is the node)`. -/
def dinv (dst : IVec S640000 32) : FVec F S50000 .f32 :=
  Host.rsqrt (addf (Host.scatterAdd scatter_S50000_S640000x1_S640000_n_0_0_1
      (broadcastInDim S50000 ![] bcast_S_S50000 (constant S_ .f32 0x00000000#32))
      (broadcastInDim S640000x1 ![0] bcast_S640000_S640000x1_0 dst)
      (broadcastInDim S640000 ![] bcast_S_S640000 (constant S_ .f32 0x3F800000#32)))
    (broadcastInDim S50000 ![] bcast_S_S50000 (constant S_ .f32 0x3F800000#32)))

/-- A negative index is counted from the end: `idx < 0 ? idx + 50000 : idx`. -/
def wrap (idx : IVec S640000 32) : IVec S640000 32 :=
  select (cmpi .slt idx (broadcastInDim S640000 ![] bcast_S_S640000 (constantI S_ 32 0#32)))
    (addi idx (broadcastInDim S640000 ![] bcast_S_S640000 (constantI S_ 32 50000#32))) idx

/-- The edge list as the column of start indices a gather or scatter takes. -/
def col (idx : IVec S640000 32) : IVec S640000x1 32 := broadcastInDim S640000x1 ![0] bcast_S640000_S640000x1_0 idx

/-- `dinv[src] * dinv[dst]`, per edge. -/
def edgeScale (src dst : IVec S640000 32) : FVec F S640000 .f32 :=
  mulf (Host.gather gather_S50000_S640000x1_S640000_n_0_n_n_0_1_1 (dinv (F := F) dst) (col (wrap src)))
    (Host.gather gather_S50000_S640000x1_S640000_n_0_n_n_0_1_1 (dinv (F := F) dst) (col (wrap dst)))

/-- The messages: rows of `hw` gathered at the sources. -/
def gathered (hw : FVec F S50000x128 .f32) (src : IVec S640000 32) : FVec F S640000x128 .f32 :=
  Host.gather gather_S50000x128_S640000x1_S640000x128_1_0_n_n_0_1_1128 hw (col (wrap src))

/-- The aggregation of one layer from the gathered messages `msg`: scale per edge, add up at the targets, add the
    node's own row scaled by `dinv²`. -/
def aggOf (hw : FVec F S50000x128 .f32) (msg : FVec F S640000x128 .f32) (src dst : IVec S640000 32) : FVec F S50000x128 .f32 :=
  addf (Host.scatterAdd scatter_S50000x128_S640000x1_S640000x128_1_0_0_1
      (broadcastInDim S50000x128 ![] bcast_S_S50000x128 (constant S_ .f32 0x00000000#32))
      (col dst)
      (mulf msg (broadcastInDim S640000x128 ![0, 1] bcast_S640000x1_S640000x128_0_1
        (broadcastInDim S640000x1 ![0] bcast_S640000_S640000x1_0 (edgeScale (F := F) src dst)))))
    (mulf hw (broadcastInDim S50000x128 ![0, 1] bcast_S50000x1_S50000x128_0_1
      (broadcastInDim S50000x1 ![0] bcast_S50000_S50000x1_0 (mulf (dinv (F := F) dst) (dinv (F := F) dst)))))

/-- The aggregation of one layer. -/
def agg (hw : FVec F S50000x128 .f32) (src dst : IVec S640000 32) : FVec F S50000x128 .f32 :=
  aggOf hw (gathered hw src) src dst

/-- A vector of 128 laid along every row. -/
def rowVec (v : FVec F S128 .f32) : FVec F S50000x128 .f32 :=
  broadcastInDim S50000x128 ![0, 1] bcast_S1x128_S50000x128_0_1 (broadcastInDim S1x128 ![1] bcast_S128_S1x128_1 v)

/-- A column laid along every row's 128 entries. -/
def spread (v : FVec F S50000x1 .f32) : FVec F S50000x128 .f32 :=
  broadcastInDim S50000x128 ![0, 1] bcast_S50000x1_S50000x128_0_1 v

/-- Each row's mean, as a column: the row sum from zero, divided by 128. -/
def mean (h : FVec F S50000x128 .f32) : FVec F S50000x1 .f32 :=
  Host.divf (broadcastInDim S50000x1 ![0] bcast_S50000_S50000x1_0
      (Host.reduceAdd h (constant S_ .f32 0x00000000#32) reducesTo_S50000x128_S50000_d1 h_S_))
    (broadcastInDim S50000x1 ![] bcast_S_S50000x1 (constant S_ .f32 0x43000000#32))

/-- Each entry minus its row's mean. -/
def centered (h : FVec F S50000x128 .f32) : FVec F S50000x128 .f32 := subf h (spread (mean h))

/-- LayerNorm (scale `g`, shift `be`) of `a + b`, then the rectifier. -/
def lnrelu (a : FVec F S50000x128 .f32) (b g be : FVec F S128 .f32) : FVec F S50000x128 .f32 :=
  maximumf (addf (mulf (mulf (rowVec g) (centered (addf a (rowVec b))))
        (spread (Host.rsqrt (addf (mean (mulf (centered (addf a (rowVec b))) (centered (addf a (rowVec b)))))
          (broadcastInDim S50000x1 ![] bcast_S_S50000x1 (constant S_ .f32 0x3727C5AC#32))))))
      (rowVec be))
    (broadcastInDim S50000x128 ![] bcast_S_S50000x128 (constant S_ .f32 0x00000000#32))

/-- The dense product `h · W`. -/
def dense (h : FVec F S50000x128 .f32) (W : FVec F S128x128 .f32) : FVec F S50000x128 .f32 :=
  Host.dotGeneral dot_S50000x128_S128x128_S50000x128_1_0_0_1_n_n none h W

/-- One layer without the residual. -/
def layer1 (h : FVec F S50000x128 .f32) (W : FVec F S128x128 .f32) (b g be : FVec F S128 .f32) (src dst : IVec S640000 32) :
    FVec F S50000x128 .f32 :=
  lnrelu (agg (dense h W) src dst) b g be

/-- One layer plus its input. -/
def layerRes (h : FVec F S50000x128 .f32) (W : FVec F S128x128 .f32) (b g be : FVec F S128 .f32) (src dst : IVec S640000 32) :
    FVec F S50000x128 .f32 :=
  addf (layer1 h W b g be src dst) h

/-- The network: three layers, the second and third with their residual. -/
def net (x : FVec F S50000x128 .f32) (src dst : IVec S640000 32)
    (W1 : FVec F S128x128 .f32) (b1 g1 be1 : FVec F S128 .f32)
    (W2 : FVec F S128x128 .f32) (b2 g2 be2 : FVec F S128 .f32)
    (W3 : FVec F S128x128 .f32) (b3 g3 be3 : FVec F S128 .f32) : FVec F S50000x128 .f32 :=
  layerRes (layerRes (layer1 x W1 b1 g1 be1 src dst) W2 b2 g2 be2 src dst) W3 b3 g3 be3 src dst

end Cert.Layers

end
-- ==== Proof.Formula.lean ====
/-
  One row of the network's normalisation, on the extended reals.  For a row `h` of 128 entries: its mean is the row's
  sum divided by 128, its variance the mean of the squared deviations, and the normalised, scaled, shifted and rectified
  entry at column `q` is `max (g · (h q − mean) · (variance + ε)^(−1/2) + β) 0`.  The literals stay as the binary
  words both programs print (128.0, ε = f32(1e-5), 0.0): the same word on both sides is never evaluated.
-/
import Idealize.ShloMosaic.PureOps.Ideal

noncomputable section

open scoped BigOperators

namespace Cert.Formula

open Idealize.ShloMosaic

/-- The mean of a row of 128 extended reals: the sum divided by the word 128.0. -/
def mean128 (h : Fin 128 → EReal) : EReal := Ideal.div (∑ k : Fin 128, h k) (Ideal.ofBits .f32 0x43000000#32)

/-- The squared deviations of a row from its mean. -/
def sqdev (h : Fin 128 → EReal) : Fin 128 → EReal := fun k => (h k - mean128 h) * (h k - mean128 h)

/-- LayerNorm followed by the rectifier, at column `q` of the row `h`, with scale `gq` and shift `bq`. -/
def lnRelu (h : Fin 128 → EReal) (gq bq : EReal) (q : Fin 128) : EReal :=
  max (gq * (h q - mean128 h) * Ideal.rsqrt (mean128 (sqdev h) + Ideal.ofBits .f32 0x3727C5AC#32) + bq)
    (Ideal.ofBits .f32 0x00000000#32)

end Cert.Formula

end
-- ==== Proof.PayIndex.lean ====
/-
  What each kernel body stores, read at one entry of its [1000, 128] block, on the extended reals.
  The matrix-product bodies: entry (p, q) is the sum over k of x(p, k) · w(k, q) (the accumulator is the zero splat).
  The normalisation bodies: entry (p, q) is `Formula.lnRelu` of row p of `x + b` (the bias laid along the rows), with
  scale g(q) and shift β(q); the residual bodies add the input block's entry (p, q).
-/
import proofs.«414224_j34711925686444_1_alg».proof.Proof.Gen.KernelIdeal.Skeleton
import proofs.«414224_j34711925686444_1_alg».proof.Proof.Formula
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Formula

/-! ## The matrix-product bodies -/

/-- The product's left operand index, row axis: the output's row. -/
private theorem lhs_dot_0 (j : S1000x128.Idx) (k : dot_S1000x128_S128x128_S1000x128_1_0_0_1_n_n.contr.Idx) :
    (dot_S1000x128_S128x128_S1000x128_1_0_0_1_n_n.lhsIdx j k 0).val = (j 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl

/-- The product's left operand index, column axis: the contracted coordinate. -/
private theorem lhs_dot_1 (j : S1000x128.Idx) (k : dot_S1000x128_S128x128_S1000x128_1_0_0_1_n_n.contr.Idx) :
    (dot_S1000x128_S128x128_S1000x128_1_0_0_1_n_n.lhsIdx j k 1).val = (k ⟨0, by decide⟩).val :=
  dot_S1000x128_S128x128_S1000x128_1_0_0_1_n_n.lhsIdx_val_of_single (cl := 1) rfl j k

/-- The product's right operand index, row axis: the contracted coordinate. -/
private theorem rhs_dot_0 (j : S1000x128.Idx) (k : dot_S1000x128_S128x128_S1000x128_1_0_0_1_n_n.contr.Idx) :
    (dot_S1000x128_S128x128_S1000x128_1_0_0_1_n_n.rhsIdx j k 0).val = (k ⟨0, by decide⟩).val :=
  dot_S1000x128_S128x128_S1000x128_1_0_0_1_n_n.rhsIdx_val_of_single (cr := 0) rfl j k

/-- The product's right operand index, column axis: the output's column. -/
private theorem rhs_dot_1 (j : S1000x128.Idx) (k : dot_S1000x128_S128x128_S1000x128_1_0_0_1_n_n.contr.Idx) :
    (dot_S1000x128_S128x128_S1000x128_1_0_0_1_n_n.rhsIdx j k 1).val = (j 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- The 1000×128 by 128×128 product into the zero splat, at (p, q): the sum over the contracted coordinate. -/
private theorem dot_apply (x : FVec Ideal S1000x128 .f32) (w : FVec Ideal S128x128 .f32) (p : Fin 1000) (q : Fin 128) :
    matmul dot_S1000x128_S128x128_S1000x128_1_0_0_1_n_n none x w (constant S1000x128 .f32 0x00000000#32) (ix2 p q)
      = ∑ k : Fin 128, x (ix2 p k) * w (ix2 k q) := by
  show FloatOps.matmul _ none x w (constant S1000x128 .f32 0x00000000#32) (ix2 p q) = _
  rw [Ideal.matmul_constant_zero_apply,
    ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have hl : dot_S1000x128_S128x128_S1000x128_1_0_0_1_n_n.lhsIdx (ix2 p q)
      ((contrEquiv1 dot_S1000x128_S128x128_S1000x128_1_0_0_1_n_n 128 rfl rfl).symm k) = ix2 p k := by
    funext ax; apply Fin.ext
    match ax with
    | ⟨0, _⟩ => exact lhs_dot_0 _ _
    | ⟨1, _⟩ => exact (lhs_dot_1 _ _).trans hk
  have hr : dot_S1000x128_S128x128_S1000x128_1_0_0_1_n_n.rhsIdx (ix2 p q)
      ((contrEquiv1 dot_S1000x128_S128x128_S1000x128_1_0_0_1_n_n 128 rfl rfl).symm k) = ix2 k q := by
    funext ax; apply Fin.ext
    match ax with
    | ⟨0, _⟩ => exact (rhs_dot_0 _ _).trans hk
    | ⟨1, _⟩ => exact rhs_dot_1 _ _
  rw [hl, hr]

/-- The first layer's product body at (p, q). -/
theorem mm0_apply (x : S1000x128.Idx → EReal) (w : S128x128.Idx → EReal) (p : Fin 1000) (q : Fin 128) :
    k0_pay1 (F := Ideal) x w (ix2 p q) = ∑ k : Fin 128, x (ix2 p k) * w (ix2 k q) :=
  dot_apply x w p q

/-- The second layer's product body at (p, q). -/
theorem mm2_apply (x : S1000x128.Idx → EReal) (w : S128x128.Idx → EReal) (p : Fin 1000) (q : Fin 128) :
    k2_pay1 (F := Ideal) x w (ix2 p q) = ∑ k : Fin 128, x (ix2 p k) * w (ix2 k q) := by
  unfold k2_pay1
  rw [shapeCast_self]
  exact dot_apply x w p q

/-- The third layer's product body at (p, q). -/
theorem mm4_apply (x : S1000x128.Idx → EReal) (w : S128x128.Idx → EReal) (p : Fin 1000) (q : Fin 128) :
    k4_pay1 (F := Ideal) x w (ix2 p q) = ∑ k : Fin 128, x (ix2 p k) * w (ix2 k q) :=
  mm2_apply x w p q

/-! ## The normalisation bodies -/

/-- A vector of 128 laid along every row, at (p, q): its entry q. -/
private theorem rowVec_apply (v : S128.Idx → EReal) (p : Fin 1000) (q : Fin 128) :
    broadcastTo S1000x128 (shapeCast S1x128 v shapeCasts_S128_S1x128) broadcasts_S1x128_S1000x128 (ix2 p q) = v (ix1 q) :=
  (broadcastTo_1b_ab_apply _ _ p q).trans (shapeCast_a_1a_apply v _ 0 q)

/-- A vector of 1000 cast to a 1000×1 column, at (p, u): its entry p. -/
private theorem col_apply (v : S1000.Idx → EReal) (p : Fin 1000) (u : Fin 1) :
    shapeCast S1000x1 v shapeCasts_S1000_S1000x1 (ix2 p u) = v (ix1 p) :=
  shapeCast_apply v _ _ _ (by
    have hu : u.val = 0 := by omega
    rw [Shape.rowMajor_val_two, Shape.rowMajor_val_one]
    show p.val = p.val * 1 + u.val
    rw [hu, Nat.mul_one, Nat.add_zero])

/-- A 1000×1 column laid along each row's 128 entries, at (p, q): its entry (p, 0). -/
private theorem spread_apply (v : S1000x1.Idx → EReal) (p : Fin 1000) (q : Fin 128) :
    broadcastTo S1000x128 v broadcasts_S1000x1_S1000x128 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- The sum along the 128 columns, at row p. -/
private theorem rowSum_apply (v : FVec Ideal S1000x128 .f32) (hφ : FTy.f32 = FTy.f32 ∨ FTy.f32 = FTy.bf16)
    (hacc : (0x00000000#32 : BitVec 32) = 0x00000000#32) (p : Fin 1000) :
    multiReduction (F := Ideal) .add [1] S1000 v 0x00000000#32 reduces_S1000x128_S1000 hφ hacc (ix1 p)
      = ∑ k : Fin 128, v (ix2 p k) := by
  refine (Ideal.multiReduction_add_single v 0x00000000#32 reduces_S1000x128_S1000 hφ hacc (ix1 p)).trans ?_
  refine Finset.sum_congr rfl fun k _ => congrArg v ?_
  funext ax; apply Fin.ext
  match ax with
  | ⟨0, _⟩ => rfl
  | ⟨1, _⟩ => rfl

/-- The inverse square root of a vector, at an index. -/
private theorem rsqrt_apply {s : Shape} {φ : FTy} (a : FVec Ideal s φ) (i : s.Idx) : rsqrt a i = Ideal.rsqrt (a i) := rfl

/-- The first layer's normalisation body at (p, q): with h the row p of x plus the bias, both row sums are read as sums
    over the 128 columns, the two divisions by 128 are h's mean and the mean of its squared deviations, and what is
    left is the formula entry by entry. -/
theorem ln1_apply (x : S1000x128.Idx → EReal) (b g be : S128.Idx → EReal) (p : Fin 1000) (q : Fin 128) :
    k1_pay1 (F := Ideal) x b g be (ix2 p q)
      = lnRelu (fun k => x (ix2 p k) + b (ix1 k)) (g (ix1 q)) (be (ix1 q)) q := by
  unfold k1_pay1 lnRelu mean128 sqdev
  -- down to the two outer row sums: the variance's and the mean's
  simp only [maximumf_apply, addf_apply, mulf_apply, subf_apply, divf_apply, rsqrt_apply, broadcast_apply,
    shapeCast_self, rowVec_apply, spread_apply, col_apply, Ideal.ofBits_def]
  rw [rowSum_apply, rowSum_apply]
  -- inside the variance's sum, down to the mean's row sum again
  simp only [maximumf_apply, addf_apply, mulf_apply, subf_apply, divf_apply, rsqrt_apply, broadcast_apply,
    shapeCast_self, rowVec_apply, spread_apply, col_apply, Ideal.ofBits_def]
  rw [rowSum_apply]
  simp only [addf_apply, rowVec_apply, mean128]

/-- The second layer's normalisation body at (p, q): the same, plus the layer's input there. -/
theorem ln3_apply (x : S1000x128.Idx → EReal) (b g be : S128.Idx → EReal) (hin : S1000x128.Idx → EReal) (p : Fin 1000) (q : Fin 128) :
    k3_pay1 (F := Ideal) x b g be hin (ix2 p q)
      = lnRelu (fun k => x (ix2 p k) + b (ix1 k)) (g (ix1 q)) (be (ix1 q)) q + hin (ix2 p q) := by
  have h : k3_pay1 (F := Ideal) x b g be hin
      = addf (k1_pay1 (F := Ideal) x b g be) (shapeCast S1000x128 hin shapeCasts_S1000x128_S1000x128) := rfl
  rw [h, addf_apply, shapeCast_self, ln1_apply]

/-- The third layer's normalisation body at (p, q). -/
theorem ln5_apply (x : S1000x128.Idx → EReal) (b g be : S128.Idx → EReal) (hin : S1000x128.Idx → EReal) (p : Fin 1000) (q : Fin 128) :
    k5_pay1 (F := Ideal) x b g be hin (ix2 p q)
      = lnRelu (fun k => x (ix2 p k) + b (ix1 k)) (g (ix1 q)) (be (ix1 q)) q + hin (ix2 p q) :=
  ln3_apply x b g be hin p q

end Cert.KernelIdeal.Pay

end
-- ==== Proof.LnIndex.lean ====
/-
  The layer functions of Layers.lean read at one entry, on the extended reals: the dense product at (p, q) is the sum
  over k of h(p, k) · W(k, q); the normalisation at (p, q) is `Formula.lnRelu` of row p of `a + b`.
-/
import proofs.«414224_j34711925686444_1_alg».proof.Proof.Layers
import proofs.«414224_j34711925686444_1_alg».proof.Proof.Formula
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.Layers

open Idealize.ShloMosaic Idealize.ShloMosaic.ValueIdx Cert.ReferenceIdeal Cert.Formula

variable [Cert.ReferenceIdeal.Facts₀]

/-! ## The dense product at an index -/

/-- The left operand's row coordinate is the output's row. -/
theorem lhs_dense_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl

/-- The left operand's column coordinate is the contraction position. -/
theorem lhs_dense_1 (i : S50000x128.Idx) (q : dot_S50000x128_S128x128_S50000x128_1_0_0_1_n_n.contr.Idx) :
    (dot_S50000x128_S128x128_S50000x128_1_0_0_1_n_n.lhsIdx i q 1).val = (q ⟨0, Nat.one_pos⟩).val :=
  dot_S50000x128_S128x128_S50000x128_1_0_0_1_n_n.lhsIdx_val_of_single rfl i q

/-- The right operand's row coordinate is the contraction position. -/
theorem rhs_dense_0 (i : S50000x128.Idx) (q : dot_S50000x128_S128x128_S50000x128_1_0_0_1_n_n.contr.Idx) :
    (dot_S50000x128_S128x128_S50000x128_1_0_0_1_n_n.rhsIdx i q 0).val = (q ⟨0, Nat.one_pos⟩).val :=
  dot_S50000x128_S128x128_S50000x128_1_0_0_1_n_n.rhsIdx_val_of_single rfl i q

/-- The right operand's column coordinate is the output's column. -/
theorem rhs_dense_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- The dense product at (p, q). -/
theorem dense_apply (h : S50000x128.Idx → EReal) (W : S128x128.Idx → EReal) (p : Fin 50000) (q : Fin 128) :
    dense (F := Ideal) h W (ix2 p q) = ∑ k : Fin 128, h (ix2 p k) * W (ix2 k q) := by
  unfold dense
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q)
      ((contrEquiv1 dot_S50000x128_S128x128_S50000x128_1_0_0_1_n_n 128 rfl rfl).symm k) = ix2 p k :=
    funext fun a => Fin.ext (by
      match a with
      | ⟨0, _⟩ => exact lhs_dense_0 _ _
      | ⟨1, _⟩ => exact (lhs_dense_1 _ _).trans hk)
  have er : dot_S50000x128_S128x128_S50000x128_1_0_0_1_n_n.rhsIdx (ix2 p q)
      ((contrEquiv1 dot_S50000x128_S128x128_S50000x128_1_0_0_1_n_n 128 rfl rfl).symm k) = ix2 k q :=
    funext fun a => Fin.ext (by
      match a with
      | ⟨0, _⟩ => exact (rhs_dense_0 _ _).trans hk
      | ⟨1, _⟩ => exact rhs_dense_1 _ _)
  rw [el, er]

/-! ## The broadcasts and the row sum at an index -/

/-- The index the broadcast lemmas are stated at is the index built from the two coordinates. -/
private theorem ix2_eq_ij {n m : Nat} (p : Fin n) (q : Fin m) : ix2 p q = StableHlo.Predicate.ij p q :=
  funext fun a => by match a with | ⟨0, _⟩ => rfl | ⟨1, _⟩ => rfl

/-- The column index (p, 0) likewise. -/
private theorem ixP_eq {n : Nat} (p : Fin n) : StableHlo.Predicate.ixP p = ix2 p (0 : Fin 1) :=
  funext fun a => by match a with | ⟨0, _⟩ => rfl | ⟨1, _⟩ => rfl

/-- The rank-one index at a coordinate likewise. -/
private theorem ofFin_eq {n : Nat} (q : Fin n) : Shape.Idx.ofFin q = ix1 q :=
  funext fun a => by match a with | ⟨0, _⟩ => exact Fin.ext rfl

/-- A scalar word laid over any shape reads that word everywhere. -/
theorem scalar_apply {t : Shape} (hb : S_.BroadcastsInDim t ![]) (w : BitVec 32) (j : t.Idx) :
    broadcastInDim t ![] hb (constant (F := Ideal) S_ .f32 w) j = Ideal.ofBits .f32 w := by
  rw [StableHlo.Predicate.bcast_scalar hb Facts₀.h_S_]
  rfl

/-- The host's inverse square root at an index is the extended reals' inverse square root of the element. -/
private theorem host_rsqrt_at {s : Shape} {φ : FTy} (x : FVec Ideal s φ) (i : s.Idx) : Host.rsqrt x i = Ideal.rsqrt (x i) := rfl

/-- The host's quotient at an index is the extended reals' division of the elements. -/
private theorem host_div_at {s : Shape} {φ : FTy} (x y : FVec Ideal s φ) (i : s.Idx) :
    Host.divf x y i = Ideal.div (x i) (y i) := rfl

/-- A vector of 128 laid along every row reads, at (p, q), the vector at q. -/
theorem rowVec_apply (v : FVec Ideal S128 .f32) (p : Fin 50000) (q : Fin 128) :
    rowVec (F := Ideal) v (ix2 p q) = v (ix1 q) := by
  unfold rowVec
  rw [ix2_eq_ij, StableHlo.Predicate.bcast_cols, ofFin_eq]

/-- A column laid along every row's entries reads, at (p, q), the column at (p, 0). -/
theorem spread_apply (v : FVec Ideal S50000x1 .f32) (p : Fin 50000) (q : Fin 128) :
    spread (F := Ideal) v (ix2 p q) = v (ix2 p (0 : Fin 1)) := by
  unfold spread
  rw [ix2_eq_ij, StableHlo.Predicate.bcast_of_col, ixP_eq]

/-- The row sum from zero at p is the sum of row p. -/
theorem rowSum_apply (h : FVec Ideal S50000x128 .f32) (p : Fin 50000) :
    Host.reduceAdd h (constant (F := Ideal) S_ .f32 0x00000000#32) Facts₀.reducesTo_S50000x128_S50000_d1 Facts₀.h_S_ (ix1 p)
      = ∑ k : Fin 128, h (ix2 p k) := by
  show Ideal.hostReduceAdd Facts₀.reducesTo_S50000x128_S50000_d1 h (Ideal.ofBits .f32 0x00000000#32) (ix1 p) = _
  rw [Ideal.hostReduceAdd_single Facts₀.reducesTo_S50000x128_S50000_d1 (by decide), Ideal.ofBits_zero_f32, zero_add]
  refine Finset.sum_congr rfl fun k _ => ?_
  exact congrArg h (funext fun a => Fin.ext (by match a with | ⟨0, _⟩ => rfl | ⟨1, _⟩ => rfl))

/-- Each row's mean, read at (p, 0), is the mean of row p. -/
theorem mean_apply (h : FVec Ideal S50000x128 .f32) (p : Fin 50000) :
    mean (F := Ideal) h (ix2 p (0 : Fin 1)) = mean128 fun k => h (ix2 p k) := by
  unfold mean mean128
  rw [host_div_at, scalar_apply, ← ixP_eq, StableHlo.Predicate.bcast_col1, ofFin_eq, rowSum_apply]

/-- Each entry minus its row's mean, at (p, q). -/
theorem centered_apply (h : FVec Ideal S50000x128 .f32) (p : Fin 50000) (q : Fin 128) :
    centered (F := Ideal) h (ix2 p q) = h (ix2 p q) - mean128 fun k => h (ix2 p k) := by
  unfold centered
  rw [subf_apply, spread_apply, mean_apply]

/-- Bias, LayerNorm, scale, shift and rectifier at (p, q). -/
theorem lnrelu_apply (a : S50000x128.Idx → EReal) (b g be : S128.Idx → EReal) (p : Fin 50000) (q : Fin 128) :
    lnrelu (F := Ideal) a b g be (ix2 p q)
      = lnRelu (fun k => a (ix2 p k) + b (ix1 k)) (g (ix1 q)) (be (ix1 q)) q := by
  have hx : ∀ k : Fin 128, addf (F := Ideal) a (rowVec b) (ix2 p k) = a (ix2 p k) + b (ix1 k) := fun k => by
    rw [addf_apply, rowVec_apply]
  have hrow : (fun k : Fin 128 => addf (F := Ideal) a (rowVec b) (ix2 p k)) = fun k => a (ix2 p k) + b (ix1 k) :=
    funext hx
  have hsq : (fun k : Fin 128 => mulf (F := Ideal) (centered (addf a (rowVec b))) (centered (addf a (rowVec b))) (ix2 p k))
      = sqdev fun k => a (ix2 p k) + b (ix1 k) :=
    funext fun k => by rw [mulf_apply, centered_apply, hrow, hx]; rfl
  unfold lnrelu lnRelu
  rw [maximumf_apply, addf_apply, mulf_apply, mulf_apply, rowVec_apply, rowVec_apply, centered_apply, hrow, hx,
    spread_apply, scalar_apply, host_rsqrt_at, addf_apply, mean_apply, hsq, scalar_apply]

end Cert.Layers

end
-- ==== Proof.RegionMM.lean ====
/-
  The three matrix-product launches, each as ONE whole-array function of the arrays the launch finds.
  The grid has 50 points; point t fetches rows 1000·t … 1000·t + 999 of the left operand and the whole right operand, and
  writes back the same rows of the result; the blocks tile the [50000, 128] result.  Row r of the result depends only on
  row r of the left operand, so block t of the result is block t of the dense product `h · W`: the result array ends
  holding `Layers.dense h W`.
-/
import proofs.«414224_j34711925686444_1_alg».proof.Proof.Gen.KernelIdeal.Frame
import proofs.«414224_j34711925686444_1_alg».proof.Proof.Gen.ReferenceIdeal
import proofs.«414224_j34711925686444_1_alg».proof.Proof.PayIndex
import proofs.«414224_j34711925686444_1_alg».proof.Proof.LnIndex
import Idealize.ShloMosaic.Lib.Pipeline.Value
import Idealize.ShloMosaic.Lib.ValueIdx
import Idealize.ShloMosaic.Lib.Tactic

set_option maxRecDepth 16384

noncomputable section

open scoped BigOperators

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

-- The TensorCore's buffer contents when a region is entered: any.
variable (V : (c : Dev nD) → (b : Ref sig .tc) → Buf (Elt Ideal) ((c : Thread nD τ).loc b))

/-- The whole-buffer rectangle's offsets are zero on both axes. -/
private theorem zero_offsets : (![0, 0] : Fin 2 → Nat) = fun _ => 0 := funext fun a => by fin_cases a <;> rfl

/-! ## Launch 0 -/

/-- The index maps over the 50 grid points: the left operand's block and the result's block move with the point along
    the rows, in column block 0; the right operand's block stays at (0, 0). -/
private theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left operand's block at point t is entry (1000·t + p, k) of the array. -/
private theorem left0_apply (c : Dev nD) (t : Fin cfg0.N) (y : S1000x128.Idx) (i : S50000x128.Idx)
    (h0 : (i 0).val = 1000 * t.val + (y 0).val) (h1 : (i 1).val = (y 1).val) :
    (iblk0 (F := Ideal) V c 0 t : S1000x128.Idx → EReal) y = (V c main_arg0 : S50000x128.Idx → EReal) i := by
  obtain ⟨e0, e1, -⟩ := index_facts0 t
  unfold iblk0
  rw [View.read_apply]
  show V c main_arg0 _ = V c main_arg0 _
  congr 1
  funext a
  apply Fin.ext
  match a with
  | ⟨0, _⟩ => show win0_0.index t 0 * 1000 + 1 * (y 0).val = (i 0).val; rw [e0, h0]; omega
  | ⟨1, _⟩ => show win0_0.index t 1 * 128 + 1 * (y 1).val = (i 1).val; rw [e1, h1]; omega

/-- The right operand's block is the whole [128, 128] array at every point. -/
private theorem right0_apply (c : Dev nD) (t : Fin cfg0.N) (y : S128x128.Idx) :
    (iblk0 (F := Ideal) V c 1 t : S128x128.Idx → EReal) y = (V c main_arg3 : S128x128.Idx → EReal) y := by
  obtain ⟨-, -, e0, e1, -⟩ := index_facts0 t
  unfold iblk0
  rw [View.read_apply]
  show V c main_arg3 _ = V c main_arg3 _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- Entry (p, q) of the result's block at point t sits at (1000·t + p, q) of the result array. -/
private theorem out0_emb (t : Fin cfg0.N) (p : Fin 1000) (q : Fin 128) (hr : 1000 * t.val + p.val < 50000) :
    (((cfg0.win 2).blk t).view.emb (ix2 p q) : S50000x128.Idx) = ix2 ⟨1000 * t.val + p.val, hr⟩ q := by
  obtain ⟨-, -, -, -, e0, e1⟩ := index_facts0 t
  funext a
  apply Fin.ext
  match a with
  | ⟨0, _⟩ => show win0_2.index t 0 * 1000 + 1 * p.val = 1000 * t.val + p.val; rw [e0]; omega
  | ⟨1, _⟩ => show win0_2.index t 1 * 128 + 1 * q.val = q.val; rw [e1]; omega

/-- What point t writes back is block t of the dense product of the two arrays: entry (p, q) of the block product is
    the sum over k of the left block's (p, k) times the weight's (k, q), and the left block's row p is the array's row
    1000·t + p. -/
private theorem flushed0 (c : Dev nD) (t : Fin cfg0.N) :
    (dat0 (F := Ideal) V c).flushed 2 t
      = ((cfg0.win 2).blk t).view.read (Elt Ideal) (Cert.Layers.dense (F := Ideal) (V c main_arg0) (V c main_arg3)) := by
  show (cfg0.win 2).cut (grid0.coords t) ((dat0 V c).after 2 t) = _
  rw [after0_2]
  unfold out0_2
  rw [View.canon_unit_zero zero_offsets]
  simp only [View.ld_unit_zero (S := S1000x128) zero_offsets, View.ld_unit_zero (S := S128x128) zero_offsets]
  funext y
  obtain ⟨p, q, rfl⟩ : ∃ (p : Fin 1000) (q : Fin 128), y = ix2 p q := ⟨y 0, y 1, eq_ix2 y⟩
  have hN : cfg0.N = 50 := N_0
  have hr : 1000 * t.val + p.val < 50000 := by have := t.isLt; have := p.isLt; omega
  show k0_pay1 (F := Ideal) (iblk0 V c 0 t) (iblk0 V c 1 t) (ix2 p q)
      = Cert.Layers.dense (F := Ideal) (V c main_arg0) (V c main_arg3) (((cfg0.win 2).blk t).view.emb (ix2 p q))
  refine (Cert.KernelIdeal.Pay.mm0_apply (iblk0 (F := Ideal) V c 0 t) (iblk0 (F := Ideal) V c 1 t) p q).trans ?_
  rw [out0_emb t p q hr, Cert.Layers.dense_apply]
  refine Finset.sum_congr rfl fun k _ => ?_
  rw [left0_apply V c t (ix2 p k) (ix2 ⟨1000 * t.val + p.val, hr⟩ k) rfl rfl, right0_apply V c t (ix2 k q)]

/-- An index of the result array is in point t's block iff each coordinate is in the block's range on its axis. -/
private theorem mem_blk0 (t : Fin cfg0.N) (i : S50000x128.Idx) :
    i ∈ ((cfg0.win 2).blk t).view.set ↔ ∀ a : Fin 2, win0_2.index t a * S1000x128.size a ≤ (i a).val
      ∧ (i a).val < win0_2.index t a * S1000x128.size a + S1000x128.size a := by
  show i ∈ ((View.whole main_v23).slice (win0_2.rect t)).set ↔ _
  rw [View.set_slice_whole, Rect.mem_set_unit]
  exact Iff.rfl

/-- Row r of the result lies in the block of point r / 1000, and every point writes its block back. -/
private theorem cover0 (i : S50000x128.Idx) :
    ∃ t : Fin cfg0.N, (cfg0.win 2).flush t = true ∧ i ∈ ((cfg0.win 2).blk t).view.set := by
  have hN : cfg0.N = 50 := N_0
  have h0 : (i 0).val < 50000 := (i 0).isLt
  have h1 : (i 1).val < 128 := (i 1).isLt
  obtain ⟨t, ht⟩ : ∃ t : Fin cfg0.N, t.val = (i 0).val / 1000 := ⟨⟨(i 0).val / 1000, by omega⟩, rfl⟩
  obtain ⟨-, -, -, -, e0, e1⟩ := index_facts0 t
  refine ⟨t, flush0_2 t, ?_⟩
  rw [mem_blk0]
  intro a
  match a with
  | ⟨0, _⟩ => show win0_2.index t 0 * 1000 ≤ (i 0).val ∧ (i 0).val < win0_2.index t 0 * 1000 + 1000; rw [e0]; omega
  | ⟨1, _⟩ => show win0_2.index t 1 * 128 ≤ (i 1).val ∧ (i 1).val < win0_2.index t 1 * 128 + 128; rw [e1]; omega

/-- The first layer's launch leaves `x · W1` in its result array. -/
theorem region0 (c : Dev nD) :
    (dat0 (F := Ideal) V c).arrAt 2 cfg0.N = Cert.Layers.dense (F := Ideal) (V c main_arg0) (V c main_arg3) :=
  (dat0 (F := Ideal) V c).arrAt_eq_of_cover 2 (Cert.Layers.dense (F := Ideal) (V c main_arg0) (V c main_arg3))
    (fun t _ => flushed0 V c t) cover0

/-! ## Launch 2 -/

/-- The index maps over the 50 grid points: the left operand's block and the result's block move with the point along
    the rows, in column block 0; the right operand's block stays at (0, 0). -/
private theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the left operand's block at point t is entry (1000·t + p, k) of the array. -/
private theorem left2_apply (c : Dev nD) (t : Fin cfg2.N) (y : S1000x128.Idx) (i : S50000x128.Idx)
    (h0 : (i 0).val = 1000 * t.val + (y 0).val) (h1 : (i 1).val = (y 1).val) :
    (iblk2 (F := Ideal) V c 0 t : S1000x128.Idx → EReal) y = (V c main_v35 : S50000x128.Idx → EReal) i := by
  obtain ⟨e0, e1, -⟩ := index_facts2 t
  unfold iblk2
  rw [View.read_apply]
  show V c main_v35 _ = V c main_v35 _
  congr 1
  funext a
  apply Fin.ext
  match a with
  | ⟨0, _⟩ => show win2_0.index t 0 * 1000 + 1 * (y 0).val = (i 0).val; rw [e0, h0]; omega
  | ⟨1, _⟩ => show win2_0.index t 1 * 128 + 1 * (y 1).val = (i 1).val; rw [e1, h1]; omega

/-- The right operand's block is the whole [128, 128] array at every point. -/
private theorem right2_apply (c : Dev nD) (t : Fin cfg2.N) (y : S128x128.Idx) :
    (iblk2 (F := Ideal) V c 1 t : S128x128.Idx → EReal) y = (V c main_arg7 : S128x128.Idx → EReal) y := by
  obtain ⟨-, -, e0, e1, -⟩ := index_facts2 t
  unfold iblk2
  rw [View.read_apply]
  show V c main_arg7 _ = V c main_arg7 _
  congr 1
  funext a
  apply Fin.ext
  match a with
  | ⟨0, _⟩ => show win2_1.index t 0 * 128 + 1 * (y 0).val = (y 0).val; rw [e0]; omega
  | ⟨1, _⟩ => show win2_1.index t 1 * 128 + 1 * (y 1).val = (y 1).val; rw [e1]; omega

/-- Entry (p, q) of the result's block at point t sits at (1000·t + p, q) of the result array. -/
private theorem out2_emb (t : Fin cfg2.N) (p : Fin 1000) (q : Fin 128) (hr : 1000 * t.val + p.val < 50000) :
    (((cfg2.win 2).blk t).view.emb (ix2 p q) : S50000x128.Idx) = ix2 ⟨1000 * t.val + p.val, hr⟩ q := by
  obtain ⟨-, -, -, -, e0, e1⟩ := index_facts2 t
  funext a
  apply Fin.ext
  match a with
  | ⟨0, _⟩ => show win2_2.index t 0 * 1000 + 1 * p.val = 1000 * t.val + p.val; rw [e0]; omega
  | ⟨1, _⟩ => show win2_2.index t 1 * 128 + 1 * q.val = q.val; rw [e1]; omega

/-- What point t writes back is block t of the dense product of the two arrays: entry (p, q) of the block product is
    the sum over k of the left block's (p, k) times the weight's (k, q), and the left block's row p is the array's row
    1000·t + p. -/
private theorem flushed2 (c : Dev nD) (t : Fin cfg2.N) :
    (dat2 (F := Ideal) V c).flushed 2 t
      = ((cfg2.win 2).blk t).view.read (Elt Ideal) (Cert.Layers.dense (F := Ideal) (V c main_v35) (V c main_arg7)) := by
  show (cfg2.win 2).cut (grid2.coords t) ((dat2 V c).after 2 t) = _
  rw [after2_2]
  unfold out2_2
  rw [View.canon_unit_zero zero_offsets]
  simp only [View.ld_unit_zero (S := S1000x128) zero_offsets, View.ld_unit_zero (S := S128x128) zero_offsets]
  funext y
  obtain ⟨p, q, rfl⟩ : ∃ (p : Fin 1000) (q : Fin 128), y = ix2 p q := ⟨y 0, y 1, eq_ix2 y⟩
  have hN : cfg2.N = 50 := N_2
  have hr : 1000 * t.val + p.val < 50000 := by have := t.isLt; have := p.isLt; omega
  show k2_pay1 (F := Ideal) (iblk2 V c 0 t) (iblk2 V c 1 t) (ix2 p q)
      = Cert.Layers.dense (F := Ideal) (V c main_v35) (V c main_arg7) (((cfg2.win 2).blk t).view.emb (ix2 p q))
  refine (Cert.KernelIdeal.Pay.mm2_apply (iblk2 (F := Ideal) V c 0 t) (iblk2 (F := Ideal) V c 1 t) p q).trans ?_
  rw [out2_emb t p q hr, Cert.Layers.dense_apply]
  refine Finset.sum_congr rfl fun k _ => ?_
  rw [left2_apply V c t (ix2 p k) (ix2 ⟨1000 * t.val + p.val, hr⟩ k) rfl rfl, right2_apply V c t (ix2 k q)]

/-- An index of the result array is in point t's block iff each coordinate is in the block's range on its axis. -/
private theorem mem_blk2 (t : Fin cfg2.N) (i : S50000x128.Idx) :
    i ∈ ((cfg2.win 2).blk t).view.set ↔ ∀ a : Fin 2, win2_2.index t a * S1000x128.size a ≤ (i a).val
      ∧ (i a).val < win2_2.index t a * S1000x128.size a + S1000x128.size a := by
  show i ∈ ((View.whole main_v36).slice (win2_2.rect t)).set ↔ _
  rw [View.set_slice_whole, Rect.mem_set_unit]
  exact Iff.rfl

/-- Row r of the result lies in the block of point r / 1000, and every point writes its block back. -/
private theorem cover2 (i : S50000x128.Idx) :
    ∃ t : Fin cfg2.N, (cfg2.win 2).flush t = true ∧ i ∈ ((cfg2.win 2).blk t).view.set := by
  have hN : cfg2.N = 50 := N_2
  have h0 : (i 0).val < 50000 := (i 0).isLt
  have h1 : (i 1).val < 128 := (i 1).isLt
  obtain ⟨t, ht⟩ : ∃ t : Fin cfg2.N, t.val = (i 0).val / 1000 := ⟨⟨(i 0).val / 1000, by omega⟩, rfl⟩
  obtain ⟨-, -, -, -, e0, e1⟩ := index_facts2 t
  refine ⟨t, flush2_2 t, ?_⟩
  rw [mem_blk2]
  intro a
  match a with
  | ⟨0, _⟩ => show win2_2.index t 0 * 1000 ≤ (i 0).val ∧ (i 0).val < win2_2.index t 0 * 1000 + 1000; rw [e0]; omega
  | ⟨1, _⟩ => show win2_2.index t 1 * 128 ≤ (i 1).val ∧ (i 1).val < win2_2.index t 1 * 128 + 128; rw [e1]; omega

/-- The second layer's launch leaves `h1 · W2` in its result array. -/
theorem region2 (c : Dev nD) :
    (dat2 (F := Ideal) V c).arrAt 2 cfg2.N = Cert.Layers.dense (F := Ideal) (V c main_v35) (V c main_arg7) :=
  (dat2 (F := Ideal) V c).arrAt_eq_of_cover 2 (Cert.Layers.dense (F := Ideal) (V c main_v35) (V c main_arg7))
    (fun t _ => flushed2 V c t) cover2

/-! ## Launch 4 -/

/-- The index maps over the 50 grid points: the left operand's block and the result's block move with the point along
    the rows, in column block 0; the right operand's block stays at (0, 0). -/
private theorem index_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry (p, k) of the left operand's block at point t is entry (1000·t + p, k) of the array. -/
private theorem left4_apply (c : Dev nD) (t : Fin cfg4.N) (y : S1000x128.Idx) (i : S50000x128.Idx)
    (h0 : (i 0).val = 1000 * t.val + (y 0).val) (h1 : (i 1).val = (y 1).val) :
    (iblk4 (F := Ideal) V c 0 t : S1000x128.Idx → EReal) y = (V c main_v48 : S50000x128.Idx → EReal) i := by
  obtain ⟨e0, e1, -⟩ := index_facts4 t
  unfold iblk4
  rw [View.read_apply]
  show V c main_v48 _ = V c main_v48 _
  congr 1
  funext a
  apply Fin.ext
  match a with
  | ⟨0, _⟩ => show win4_0.index t 0 * 1000 + 1 * (y 0).val = (i 0).val; rw [e0, h0]; omega
  | ⟨1, _⟩ => show win4_0.index t 1 * 128 + 1 * (y 1).val = (i 1).val; rw [e1, h1]; omega

/-- The right operand's block is the whole [128, 128] array at every point. -/
private theorem right4_apply (c : Dev nD) (t : Fin cfg4.N) (y : S128x128.Idx) :
    (iblk4 (F := Ideal) V c 1 t : S128x128.Idx → EReal) y = (V c main_arg11 : S128x128.Idx → EReal) y := by
  obtain ⟨-, -, e0, e1, -⟩ := index_facts4 t
  unfold iblk4
  rw [View.read_apply]
  show V c main_arg11 _ = V c main_arg11 _
  congr 1
  funext a
  apply Fin.ext
  match a with
  | ⟨0, _⟩ => show win4_1.index t 0 * 128 + 1 * (y 0).val = (y 0).val; rw [e0]; omega
  | ⟨1, _⟩ => show win4_1.index t 1 * 128 + 1 * (y 1).val = (y 1).val; rw [e1]; omega

/-- Entry (p, q) of the result's block at point t sits at (1000·t + p, q) of the result array. -/
private theorem out4_emb (t : Fin cfg4.N) (p : Fin 1000) (q : Fin 128) (hr : 1000 * t.val + p.val < 50000) :
    (((cfg4.win 2).blk t).view.emb (ix2 p q) : S50000x128.Idx) = ix2 ⟨1000 * t.val + p.val, hr⟩ q := by
  obtain ⟨-, -, -, -, e0, e1⟩ := index_facts4 t
  funext a
  apply Fin.ext
  match a with
  | ⟨0, _⟩ => show win4_2.index t 0 * 1000 + 1 * p.val = 1000 * t.val + p.val; rw [e0]; omega
  | ⟨1, _⟩ => show win4_2.index t 1 * 128 + 1 * q.val = q.val; rw [e1]; omega

/-- What point t writes back is block t of the dense product of the two arrays: entry (p, q) of the block product is
    the sum over k of the left block's (p, k) times the weight's (k, q), and the left block's row p is the array's row
    1000·t + p. -/
private theorem flushed4 (c : Dev nD) (t : Fin cfg4.N) :
    (dat4 (F := Ideal) V c).flushed 2 t
      = ((cfg4.win 2).blk t).view.read (Elt Ideal) (Cert.Layers.dense (F := Ideal) (V c main_v48) (V c main_arg11)) := by
  show (cfg4.win 2).cut (grid4.coords t) ((dat4 V c).after 2 t) = _
  rw [after4_2]
  unfold out4_2
  rw [View.canon_unit_zero zero_offsets]
  simp only [View.ld_unit_zero (S := S1000x128) zero_offsets, View.ld_unit_zero (S := S128x128) zero_offsets]
  funext y
  obtain ⟨p, q, rfl⟩ : ∃ (p : Fin 1000) (q : Fin 128), y = ix2 p q := ⟨y 0, y 1, eq_ix2 y⟩
  have hN : cfg4.N = 50 := N_4
  have hr : 1000 * t.val + p.val < 50000 := by have := t.isLt; have := p.isLt; omega
  show k4_pay1 (F := Ideal) (iblk4 V c 0 t) (iblk4 V c 1 t) (ix2 p q)
      = Cert.Layers.dense (F := Ideal) (V c main_v48) (V c main_arg11) (((cfg4.win 2).blk t).view.emb (ix2 p q))
  refine (Cert.KernelIdeal.Pay.mm4_apply (iblk4 (F := Ideal) V c 0 t) (iblk4 (F := Ideal) V c 1 t) p q).trans ?_
  rw [out4_emb t p q hr, Cert.Layers.dense_apply]
  refine Finset.sum_congr rfl fun k _ => ?_
  rw [left4_apply V c t (ix2 p k) (ix2 ⟨1000 * t.val + p.val, hr⟩ k) rfl rfl, right4_apply V c t (ix2 k q)]

/-- An index of the result array is in point t's block iff each coordinate is in the block's range on its axis. -/
private theorem mem_blk4 (t : Fin cfg4.N) (i : S50000x128.Idx) :
    i ∈ ((cfg4.win 2).blk t).view.set ↔ ∀ a : Fin 2, win4_2.index t a * S1000x128.size a ≤ (i a).val
      ∧ (i a).val < win4_2.index t a * S1000x128.size a + S1000x128.size a := by
  show i ∈ ((View.whole main_v49).slice (win4_2.rect t)).set ↔ _
  rw [View.set_slice_whole, Rect.mem_set_unit]
  exact Iff.rfl

/-- Row r of the result lies in the block of point r / 1000, and every point writes its block back. -/
private theorem cover4 (i : S50000x128.Idx) :
    ∃ t : Fin cfg4.N, (cfg4.win 2).flush t = true ∧ i ∈ ((cfg4.win 2).blk t).view.set := by
  have hN : cfg4.N = 50 := N_4
  have h0 : (i 0).val < 50000 := (i 0).isLt
  have h1 : (i 1).val < 128 := (i 1).isLt
  obtain ⟨t, ht⟩ : ∃ t : Fin cfg4.N, t.val = (i 0).val / 1000 := ⟨⟨(i 0).val / 1000, by omega⟩, rfl⟩
  obtain ⟨-, -, -, -, e0, e1⟩ := index_facts4 t
  refine ⟨t, flush4_2 t, ?_⟩
  rw [mem_blk4]
  intro a
  match a with
  | ⟨0, _⟩ => show win4_2.index t 0 * 1000 ≤ (i 0).val ∧ (i 0).val < win4_2.index t 0 * 1000 + 1000; rw [e0]; omega
  | ⟨1, _⟩ => show win4_2.index t 1 * 128 ≤ (i 1).val ∧ (i 1).val < win4_2.index t 1 * 128 + 128; rw [e1]; omega

/-- The third layer's launch leaves `h2 · W3` in its result array. -/
theorem region4 (c : Dev nD) :
    (dat4 (F := Ideal) V c).arrAt 2 cfg4.N = Cert.Layers.dense (F := Ideal) (V c main_v48) (V c main_arg11) :=
  (dat4 (F := Ideal) V c).arrAt_eq_of_cover 2 (Cert.Layers.dense (F := Ideal) (V c main_v48) (V c main_arg11))
    (fun t _ => flushed4 V c t) cover4

end Cert.KernelIdeal.RegionValue

end
-- ==== Proof.RegionLN.lean ====
/-
  The three normalisation launches, each as ONE whole-array function of the arrays the launch finds.
  The grid has 50 points; point t fetches rows 1000·t … 1000·t + 999 of the aggregated array (and of the layer's input,
  where there is a residual) and the three 128-vectors whole, and writes back the same rows of the result; the blocks
  tile the [50000, 128] result.  LayerNorm works row by row, so block t of the result is block t of
  `Layers.lnrelu a b g β` (plus the layer's input): the result array ends holding that function.
-/
import proofs.«414224_j34711925686444_1_alg».proof.Proof.Gen.KernelIdeal.Frame
import proofs.«414224_j34711925686444_1_alg».proof.Proof.Gen.ReferenceIdeal
import proofs.«414224_j34711925686444_1_alg».proof.Proof.PayIndex
import proofs.«414224_j34711925686444_1_alg».proof.Proof.LnIndex
import Idealize.ShloMosaic.Lib.Pipeline.Value
import Idealize.ShloMosaic.Lib.ValueIdx
import Idealize.ShloMosaic.Lib.Tactic

set_option maxRecDepth 16384

noncomputable section

open scoped BigOperators

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

-- The TensorCore's buffer contents when a region is entered: any.
variable (V : (c : Dev nD) → (b : Ref sig .tc) → Buf (Elt Ideal) ((c : Thread nD τ).loc b))

/-! ## The zero offsets of a whole staging buffer, as the constant function -/

private theorem offs2 : (![0, 0] : Fin 2 → Nat) = fun _ => 0 := funext fun a => by fin_cases a <;> rfl
private theorem offs1 : (![0] : Fin 1 → Nat) = fun _ => 0 := funext fun a => by fin_cases a <;> rfl

/-! ## LayerNorm of a row needs that row only

Entry (p, q) of what a body stores is `Formula.lnRelu` of row p of its block of the aggregated array plus the bias;
entry (1000·t + p, q) of the array function is the same formula of row 1000·t + p of the whole aggregated array.  When
the block's row p is the array's row 1000·t + p, the two entries are equal. -/

/-- Without residual. -/
private theorem entry_plain (pay : (S1000x128.Idx → EReal) → (S128.Idx → EReal) → (S128.Idx → EReal) → (S128.Idx → EReal)
      → S1000x128.Idx → EReal)
    (hpay : ∀ x b g be (p : Fin 1000) (q : Fin 128), pay x b g be (ix2 p q)
      = Cert.Formula.lnRelu (fun k => x (ix2 p k) + b (ix1 k)) (g (ix1 q)) (be (ix1 q)) q)
    (x : S1000x128.Idx → EReal) (b g be : S128.Idx → EReal) (a : S50000x128.Idx → EReal)
    (t : Nat) (ht : t < 50)
    (hx : ∀ (p : Fin 1000) (k : Fin 128), x (ix2 p k) = a (ix2 ⟨1000 * t + p.val, by omega⟩ k))
    (p : Fin 1000) (q : Fin 128) :
    pay x b g be (ix2 p q)
      = Cert.Layers.lnrelu (F := Ideal) a b g be (ix2 ⟨1000 * t + p.val, by omega⟩ q) := by
  have row : (fun k : Fin 128 => x (ix2 p k) + b (ix1 k))
      = fun k : Fin 128 => a (ix2 ⟨1000 * t + p.val, by omega⟩ k) + b (ix1 k) := funext fun k => by rw [hx]
  rw [hpay, Cert.Layers.lnrelu_apply, row]

/-- With the layer's input added: its block's entry (p, q) is the array's entry (1000·t + p, q). -/
private theorem entry_res (pay : (S1000x128.Idx → EReal) → (S128.Idx → EReal) → (S128.Idx → EReal) → (S128.Idx → EReal)
      → (S1000x128.Idx → EReal) → S1000x128.Idx → EReal)
    (hpay : ∀ x b g be hin (p : Fin 1000) (q : Fin 128), pay x b g be hin (ix2 p q)
      = Cert.Formula.lnRelu (fun k => x (ix2 p k) + b (ix1 k)) (g (ix1 q)) (be (ix1 q)) q + hin (ix2 p q))
    (x hin : S1000x128.Idx → EReal) (b g be : S128.Idx → EReal) (a h : S50000x128.Idx → EReal)
    (t : Nat) (ht : t < 50)
    (hx : ∀ (p : Fin 1000) (k : Fin 128), x (ix2 p k) = a (ix2 ⟨1000 * t + p.val, by omega⟩ k))
    (hh : ∀ (p : Fin 1000) (k : Fin 128), hin (ix2 p k) = h (ix2 ⟨1000 * t + p.val, by omega⟩ k))
    (p : Fin 1000) (q : Fin 128) :
    pay x b g be hin (ix2 p q)
      = addf (Cert.Layers.lnrelu (F := Ideal) a b g be) h (ix2 ⟨1000 * t + p.val, by omega⟩ q) := by
  have row : (fun k : Fin 128 => x (ix2 p k) + b (ix1 k))
      = fun k : Fin 128 => a (ix2 ⟨1000 * t + p.val, by omega⟩ k) + b (ix1 k) := funext fun k => by rw [hx]
  show _ = Cert.Layers.lnrelu (F := Ideal) a b g be (ix2 ⟨1000 * t + p.val, by omega⟩ q)
      + h (ix2 ⟨1000 * t + p.val, by omega⟩ q)
  rw [hpay, Cert.Layers.lnrelu_apply, row, hh]

/-! ## The first layer's launch (no residual)

Windows: 0 the aggregated array (rows move with the point), 1 to 3 the bias, scale and shift vectors (one block, the
whole vector), 4 the result (rows move with the point). -/

/-- The index maps over the grid: the aggregated array's and the result's blocks move down one block of 1000 rows per
    point; the three vectors stay at their one block. -/
private theorem maps1 : ∀ t : Fin cfg1.N,
    (win1_0.index t (0 : Fin 2) = t.val ∧ win1_0.index t (1 : Fin 2) = 0)
    ∧ (win1_4.index t (0 : Fin 2) = t.val ∧ win1_4.index t (1 : Fin 2) = 0)
    ∧ win1_1.index t (0 : Fin 1) = 0 ∧ win1_2.index t (0 : Fin 1) = 0 ∧ win1_3.index t (0 : Fin 1) = 0 :=
  (by decide +kernel : ∀ t : Fin grid1.N, _)

/-- Row p of point t's block of the aggregated array is row 1000·t + p of the array. -/
private theorem agg1_apply (c : Dev nD) (t : Fin cfg1.N) (p : Fin 1000) (k : Fin 128)
    (h : 1000 * t.val + p.val < 50000) :
    (iblk1 V c 0 t : S1000x128.Idx → EReal) (ix2 p k)
      = (V c main_v34 : S50000x128.Idx → EReal) (ix2 ⟨1000 * t.val + p.val, h⟩ k) := by
  unfold iblk1
  rw [View.read_apply]
  show V c main_v34 (((cfg1.win 0).blk t).view.emb (ix2 p k)) = V c main_v34 _
  congr 1
  funext a; apply Fin.ext
  match a with
  | ⟨0, _⟩ => show win1_0.index t 0 * 1000 + 1 * p.val = 1000 * t.val + p.val; rw [(maps1 t).1.1]; omega
  | ⟨1, _⟩ => show win1_0.index t 1 * 128 + 1 * k.val = k.val; rw [(maps1 t).1.2]; omega

/-- The bias block is the whole bias vector, at every point. -/
private theorem bias1_eq (c : Dev nD) (t : Fin cfg1.N) :
    (iblk1 V c 1 t : S128.Idx → EReal) = (V c main_arg4 : S128.Idx → EReal) := by
  funext y
  unfold iblk1
  rw [View.read_apply]
  show V c main_arg4 (((cfg1.win 1).blk t).view.emb y) = V c main_arg4 y
  congr 1
  funext a; apply Fin.ext
  match a with
  | ⟨0, _⟩ => show win1_1.index t 0 * 128 + 1 * (y 0).val = (y 0).val; rw [(maps1 t).2.2.1]; omega

/-- The scale block is the whole scale vector. -/
private theorem scale1_eq (c : Dev nD) (t : Fin cfg1.N) :
    (iblk1 V c 2 t : S128.Idx → EReal) = (V c main_arg5 : S128.Idx → EReal) := by
  funext y
  unfold iblk1
  rw [View.read_apply]
  show V c main_arg5 (((cfg1.win 2).blk t).view.emb y) = V c main_arg5 y
  congr 1
  funext a; apply Fin.ext
  match a with
  | ⟨0, _⟩ => show win1_2.index t 0 * 128 + 1 * (y 0).val = (y 0).val; rw [(maps1 t).2.2.2.1]; omega

/-- The shift block is the whole shift vector. -/
private theorem shift1_eq (c : Dev nD) (t : Fin cfg1.N) :
    (iblk1 V c 3 t : S128.Idx → EReal) = (V c main_arg6 : S128.Idx → EReal) := by
  funext y
  unfold iblk1
  rw [View.read_apply]
  show V c main_arg6 (((cfg1.win 3).blk t).view.emb y) = V c main_arg6 y
  congr 1
  funext a; apply Fin.ext
  match a with
  | ⟨0, _⟩ => show win1_3.index t 0 * 128 + 1 * (y 0).val = (y 0).val; rw [(maps1 t).2.2.2.2]; omega

/-- Entry (p, q) of point t's block of the result is entry (1000·t + p, q) of the result. -/
private theorem res1_emb (t : Fin cfg1.N) (p : Fin 1000) (q : Fin 128) (h : 1000 * t.val + p.val < 50000) :
    (((cfg1.win 4).blk t).view.emb (ix2 p q) : S50000x128.Idx) = ix2 ⟨1000 * t.val + p.val, h⟩ q := by
  funext a; apply Fin.ext
  match a with
  | ⟨0, _⟩ => show win1_4.index t 0 * 1000 + 1 * p.val = 1000 * t.val + p.val; rw [(maps1 t).2.1.1]; omega
  | ⟨1, _⟩ => show win1_4.index t 1 * 128 + 1 * q.val = q.val; rw [(maps1 t).2.1.2]; omega

/-- What point t writes back is block t of the array function. -/
private theorem flushed1 (c : Dev nD) (t : Fin cfg1.N) :
    (dat1 (F := Ideal) V c).flushed 4 t
      = ((cfg1.win 4).blk t).view.read (Elt Ideal)
          (Cert.Layers.lnrelu (F := Ideal) (V c main_v34) (V c main_arg4) (V c main_arg5) (V c main_arg6)) := by
  show (cfg1.win 4).cut (grid1.coords t) ((dat1 V c).after 4 t) = _
  rw [after1_4]
  unfold out1_4
  rw [View.canon_unit_zero offs2]
  simp only [View.ld_unit_zero (S := S1000x128) offs2, View.ld_unit_zero (S := S128) offs1]
  have ht : t.val < 50 := t.isLt
  funext y
  obtain ⟨p, q, rfl⟩ : ∃ (p : Fin 1000) (q : Fin 128), y = ix2 p q := ⟨y 0, y 1, eq_ix2 y⟩
  have hp : 1000 * t.val + p.val < 50000 := by have := p.isLt; omega
  rw [View.read_apply, res1_emb t p q hp, bias1_eq, scale1_eq, shift1_eq]
  exact entry_plain (k1_pay1 (F := Ideal)) Cert.KernelIdeal.Pay.ln1_apply
    (iblk1 V c 0 t) (V c main_arg4) (V c main_arg5) (V c main_arg6) (V c main_v34) t.val ht
    (fun p k => agg1_apply V c t p k (by have := p.isLt; omega)) p q

/-- Row r lies in the block of point r / 1000: the blocks tile the result. -/
private theorem cover1 (i : S50000x128.Idx) :
    ∃ t : Fin cfg1.N, (cfg1.win 4).flush t = true ∧ i ∈ ((cfg1.win 4).blk t).view.set := by
  have h0 : (i 0).val < 50000 := (i 0).isLt
  have h1 : (i 1).val < 128 := (i 1).isLt
  have hN : (i 0).val / 1000 < 50 := by omega
  refine ⟨⟨(i 0).val / 1000, hN⟩, flush1_4 _, ?_⟩
  obtain ⟨-, ⟨e0, e1⟩, -⟩ := maps1 ⟨(i 0).val / 1000, hN⟩
  show i ∈ ((View.whole main_v35).slice (win1_4.rect ⟨(i 0).val / 1000, hN⟩)).set
  rw [View.set_slice_whole, Rect.mem_set_unit]
  intro a
  match a with
  | ⟨0, _⟩ =>
    show win1_4.index ⟨(i 0).val / 1000, hN⟩ 0 * 1000 ≤ (i 0).val
      ∧ (i 0).val < win1_4.index ⟨(i 0).val / 1000, hN⟩ 0 * 1000 + 1000
    rw [e0]; show (i 0).val / 1000 * 1000 ≤ (i 0).val ∧ (i 0).val < (i 0).val / 1000 * 1000 + 1000; omega
  | ⟨1, _⟩ =>
    show win1_4.index ⟨(i 0).val / 1000, hN⟩ 1 * 128 ≤ (i 1).val
      ∧ (i 1).val < win1_4.index ⟨(i 0).val / 1000, hN⟩ 1 * 128 + 128
    rw [e1]; omega

/-- The first layer's launch: no residual. -/
theorem region1 (c : Dev nD) :
    (dat1 (F := Ideal) V c).arrAt 4 cfg1.N
      = Cert.Layers.lnrelu (F := Ideal) (V c main_v34) (V c main_arg4) (V c main_arg5) (V c main_arg6) :=
  (dat1 (F := Ideal) V c).arrAt_eq_of_cover 4
    (Cert.Layers.lnrelu (F := Ideal) (V c main_v34) (V c main_arg4) (V c main_arg5) (V c main_arg6))
    (fun t _ => flushed1 V c t) cover1

/-! ## The second layer's launch (with the layer's input added)

Windows: 0 the aggregated array and 1 the layer's input (rows move with the point), 2 to 4 the bias, scale and shift
vectors (one block, the whole vector), 5 the result (rows move with the point).  The body takes the input block last. -/

/-- The index maps over the grid: the aggregated array's, the layer input's and the result's blocks move down one block
    of 1000 rows per point; the three vectors stay at their one block. -/
private theorem maps3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_5.index t (0 : Fin 2) = t.val ∧ win3_5.index t (1 : Fin 2) = 0)
    ∧ win3_2.index t (0 : Fin 1) = 0 ∧ win3_3.index t (0 : Fin 1) = 0 ∧ win3_4.index t (0 : Fin 1) = 0 :=
  (by decide +kernel : ∀ t : Fin grid3.N, _)

/-- Row p of point t's block of the aggregated array is row 1000·t + p of the array. -/
private theorem agg3_apply (c : Dev nD) (t : Fin cfg3.N) (p : Fin 1000) (k : Fin 128)
    (h : 1000 * t.val + p.val < 50000) :
    (iblk3 V c 0 t : S1000x128.Idx → EReal) (ix2 p k)
      = (V c main_v47 : S50000x128.Idx → EReal) (ix2 ⟨1000 * t.val + p.val, h⟩ k) := by
  unfold iblk3
  rw [View.read_apply]
  show V c main_v47 (((cfg3.win 0).blk t).view.emb (ix2 p k)) = V c main_v47 _
  congr 1
  funext a; apply Fin.ext
  match a with
  | ⟨0, _⟩ => show win3_0.index t 0 * 1000 + 1 * p.val = 1000 * t.val + p.val; rw [(maps3 t).1.1]; omega
  | ⟨1, _⟩ => show win3_0.index t 1 * 128 + 1 * k.val = k.val; rw [(maps3 t).1.2]; omega

/-- Row p of point t's block of the layer's input is row 1000·t + p of the input. -/
private theorem inp3_apply (c : Dev nD) (t : Fin cfg3.N) (p : Fin 1000) (k : Fin 128)
    (h : 1000 * t.val + p.val < 50000) :
    (iblk3 V c 1 t : S1000x128.Idx → EReal) (ix2 p k)
      = (V c main_v35 : S50000x128.Idx → EReal) (ix2 ⟨1000 * t.val + p.val, h⟩ k) := by
  unfold iblk3
  rw [View.read_apply]
  show V c main_v35 (((cfg3.win 1).blk t).view.emb (ix2 p k)) = V c main_v35 _
  congr 1
  funext a; apply Fin.ext
  match a with
  | ⟨0, _⟩ => show win3_1.index t 0 * 1000 + 1 * p.val = 1000 * t.val + p.val; rw [(maps3 t).2.1.1]; omega
  | ⟨1, _⟩ => show win3_1.index t 1 * 128 + 1 * k.val = k.val; rw [(maps3 t).2.1.2]; omega

/-- The bias block is the whole bias vector, at every point. -/
private theorem bias3_eq (c : Dev nD) (t : Fin cfg3.N) :
    (iblk3 V c 2 t : S128.Idx → EReal) = (V c main_arg8 : S128.Idx → EReal) := by
  funext y
  unfold iblk3
  rw [View.read_apply]
  show V c main_arg8 (((cfg3.win 2).blk t).view.emb y) = V c main_arg8 y
  congr 1
  funext a; apply Fin.ext
  match a with
  | ⟨0, _⟩ => show win3_2.index t 0 * 128 + 1 * (y 0).val = (y 0).val; rw [(maps3 t).2.2.2.1]; omega

/-- The scale block is the whole scale vector. -/
private theorem scale3_eq (c : Dev nD) (t : Fin cfg3.N) :
    (iblk3 V c 3 t : S128.Idx → EReal) = (V c main_arg9 : S128.Idx → EReal) := by
  funext y
  unfold iblk3
  rw [View.read_apply]
  show V c main_arg9 (((cfg3.win 3).blk t).view.emb y) = V c main_arg9 y
  congr 1
  funext a; apply Fin.ext
  match a with
  | ⟨0, _⟩ => show win3_3.index t 0 * 128 + 1 * (y 0).val = (y 0).val; rw [(maps3 t).2.2.2.2.1]; omega

/-- The shift block is the whole shift vector. -/
private theorem shift3_eq (c : Dev nD) (t : Fin cfg3.N) :
    (iblk3 V c 4 t : S128.Idx → EReal) = (V c main_arg10 : S128.Idx → EReal) := by
  funext y
  unfold iblk3
  rw [View.read_apply]
  show V c main_arg10 (((cfg3.win 4).blk t).view.emb y) = V c main_arg10 y
  congr 1
  funext a; apply Fin.ext
  match a with
  | ⟨0, _⟩ => show win3_4.index t 0 * 128 + 1 * (y 0).val = (y 0).val; rw [(maps3 t).2.2.2.2.2]; omega

/-- Entry (p, q) of point t's block of the result is entry (1000·t + p, q) of the result. -/
private theorem res3_emb (t : Fin cfg3.N) (p : Fin 1000) (q : Fin 128) (h : 1000 * t.val + p.val < 50000) :
    (((cfg3.win 5).blk t).view.emb (ix2 p q) : S50000x128.Idx) = ix2 ⟨1000 * t.val + p.val, h⟩ q := by
  funext a; apply Fin.ext
  match a with
  | ⟨0, _⟩ => show win3_5.index t 0 * 1000 + 1 * p.val = 1000 * t.val + p.val; rw [(maps3 t).2.2.1.1]; omega
  | ⟨1, _⟩ => show win3_5.index t 1 * 128 + 1 * q.val = q.val; rw [(maps3 t).2.2.1.2]; omega

/-- What point t writes back is block t of the array function. -/
private theorem flushed3 (c : Dev nD) (t : Fin cfg3.N) :
    (dat3 (F := Ideal) V c).flushed 5 t
      = ((cfg3.win 5).blk t).view.read (Elt Ideal)
          (addf (Cert.Layers.lnrelu (F := Ideal) (V c main_v47) (V c main_arg8) (V c main_arg9) (V c main_arg10)) (V c main_v35)) := by
  show (cfg3.win 5).cut (grid3.coords t) ((dat3 V c).after 5 t) = _
  rw [after3_5]
  unfold out3_5
  rw [View.canon_unit_zero offs2]
  simp only [View.ld_unit_zero (S := S1000x128) offs2, View.ld_unit_zero (S := S128) offs1]
  have ht : t.val < 50 := t.isLt
  funext y
  obtain ⟨p, q, rfl⟩ : ∃ (p : Fin 1000) (q : Fin 128), y = ix2 p q := ⟨y 0, y 1, eq_ix2 y⟩
  have hp : 1000 * t.val + p.val < 50000 := by have := p.isLt; omega
  rw [View.read_apply, res3_emb t p q hp, bias3_eq, scale3_eq, shift3_eq]
  exact entry_res (k3_pay1 (F := Ideal)) Cert.KernelIdeal.Pay.ln3_apply
    (iblk3 V c 0 t) (iblk3 V c 1 t) (V c main_arg8) (V c main_arg9) (V c main_arg10) (V c main_v47) (V c main_v35) t.val ht
    (fun p k => agg3_apply V c t p k (by have := p.isLt; omega))
    (fun p k => inp3_apply V c t p k (by have := p.isLt; omega)) p q

/-- Row r lies in the block of point r / 1000: the blocks tile the result. -/
private theorem cover3 (i : S50000x128.Idx) :
    ∃ t : Fin cfg3.N, (cfg3.win 5).flush t = true ∧ i ∈ ((cfg3.win 5).blk t).view.set := by
  have h0 : (i 0).val < 50000 := (i 0).isLt
  have h1 : (i 1).val < 128 := (i 1).isLt
  have hN : (i 0).val / 1000 < 50 := by omega
  refine ⟨⟨(i 0).val / 1000, hN⟩, flush3_5 _, ?_⟩
  obtain ⟨-, -, ⟨e0, e1⟩, -⟩ := maps3 ⟨(i 0).val / 1000, hN⟩
  show i ∈ ((View.whole main_v48).slice (win3_5.rect ⟨(i 0).val / 1000, hN⟩)).set
  rw [View.set_slice_whole, Rect.mem_set_unit]
  intro a
  match a with
  | ⟨0, _⟩ =>
    show win3_5.index ⟨(i 0).val / 1000, hN⟩ 0 * 1000 ≤ (i 0).val
      ∧ (i 0).val < win3_5.index ⟨(i 0).val / 1000, hN⟩ 0 * 1000 + 1000
    rw [e0]; show (i 0).val / 1000 * 1000 ≤ (i 0).val ∧ (i 0).val < (i 0).val / 1000 * 1000 + 1000; omega
  | ⟨1, _⟩ =>
    show win3_5.index ⟨(i 0).val / 1000, hN⟩ 1 * 128 ≤ (i 1).val
      ∧ (i 1).val < win3_5.index ⟨(i 0).val / 1000, hN⟩ 1 * 128 + 128
    rw [e1]; omega

/-- The second layer's launch: the rectified normalisation plus the layer's input. -/
theorem region3 (c : Dev nD) :
    (dat3 (F := Ideal) V c).arrAt 5 cfg3.N
      = addf (Cert.Layers.lnrelu (F := Ideal) (V c main_v47) (V c main_arg8) (V c main_arg9) (V c main_arg10)) (V c main_v35) :=
  (dat3 (F := Ideal) V c).arrAt_eq_of_cover 5
    (addf (Cert.Layers.lnrelu (F := Ideal) (V c main_v47) (V c main_arg8) (V c main_arg9) (V c main_arg10)) (V c main_v35))
    (fun t _ => flushed3 V c t) cover3

/-! ## The third layer's launch (with the layer's input added)

Windows: 0 the aggregated array and 1 the layer's input (rows move with the point), 2 to 4 the bias, scale and shift
vectors (one block, the whole vector), 5 the result (rows move with the point).  The body takes the input block last. -/

/-- The index maps over the grid: the aggregated array's, the layer input's and the result's blocks move down one block
    of 1000 rows per point; the three vectors stay at their one block. -/
private theorem maps5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_5.index t (0 : Fin 2) = t.val ∧ win5_5.index t (1 : Fin 2) = 0)
    ∧ win5_2.index t (0 : Fin 1) = 0 ∧ win5_3.index t (0 : Fin 1) = 0 ∧ win5_4.index t (0 : Fin 1) = 0 :=
  (by decide +kernel : ∀ t : Fin grid5.N, _)

/-- Row p of point t's block of the aggregated array is row 1000·t + p of the array. -/
private theorem agg5_apply (c : Dev nD) (t : Fin cfg5.N) (p : Fin 1000) (k : Fin 128)
    (h : 1000 * t.val + p.val < 50000) :
    (iblk5 V c 0 t : S1000x128.Idx → EReal) (ix2 p k)
      = (V c main_v60 : S50000x128.Idx → EReal) (ix2 ⟨1000 * t.val + p.val, h⟩ k) := by
  unfold iblk5
  rw [View.read_apply]
  show V c main_v60 (((cfg5.win 0).blk t).view.emb (ix2 p k)) = V c main_v60 _
  congr 1
  funext a; apply Fin.ext
  match a with
  | ⟨0, _⟩ => show win5_0.index t 0 * 1000 + 1 * p.val = 1000 * t.val + p.val; rw [(maps5 t).1.1]; omega
  | ⟨1, _⟩ => show win5_0.index t 1 * 128 + 1 * k.val = k.val; rw [(maps5 t).1.2]; omega

/-- Row p of point t's block of the layer's input is row 1000·t + p of the input. -/
private theorem inp5_apply (c : Dev nD) (t : Fin cfg5.N) (p : Fin 1000) (k : Fin 128)
    (h : 1000 * t.val + p.val < 50000) :
    (iblk5 V c 1 t : S1000x128.Idx → EReal) (ix2 p k)
      = (V c main_v48 : S50000x128.Idx → EReal) (ix2 ⟨1000 * t.val + p.val, h⟩ k) := by
  unfold iblk5
  rw [View.read_apply]
  show V c main_v48 (((cfg5.win 1).blk t).view.emb (ix2 p k)) = V c main_v48 _
  congr 1
  funext a; apply Fin.ext
  match a with
  | ⟨0, _⟩ => show win5_1.index t 0 * 1000 + 1 * p.val = 1000 * t.val + p.val; rw [(maps5 t).2.1.1]; omega
  | ⟨1, _⟩ => show win5_1.index t 1 * 128 + 1 * k.val = k.val; rw [(maps5 t).2.1.2]; omega

/-- The bias block is the whole bias vector, at every point. -/
private theorem bias5_eq (c : Dev nD) (t : Fin cfg5.N) :
    (iblk5 V c 2 t : S128.Idx → EReal) = (V c main_arg12 : S128.Idx → EReal) := by
  funext y
  unfold iblk5
  rw [View.read_apply]
  show V c main_arg12 (((cfg5.win 2).blk t).view.emb y) = V c main_arg12 y
  congr 1
  funext a; apply Fin.ext
  match a with
  | ⟨0, _⟩ => show win5_2.index t 0 * 128 + 1 * (y 0).val = (y 0).val; rw [(maps5 t).2.2.2.1]; omega

/-- The scale block is the whole scale vector. -/
private theorem scale5_eq (c : Dev nD) (t : Fin cfg5.N) :
    (iblk5 V c 3 t : S128.Idx → EReal) = (V c main_arg13 : S128.Idx → EReal) := by
  funext y
  unfold iblk5
  rw [View.read_apply]
  show V c main_arg13 (((cfg5.win 3).blk t).view.emb y) = V c main_arg13 y
  congr 1
  funext a; apply Fin.ext
  match a with
  | ⟨0, _⟩ => show win5_3.index t 0 * 128 + 1 * (y 0).val = (y 0).val; rw [(maps5 t).2.2.2.2.1]; omega

/-- The shift block is the whole shift vector. -/
private theorem shift5_eq (c : Dev nD) (t : Fin cfg5.N) :
    (iblk5 V c 4 t : S128.Idx → EReal) = (V c main_arg14 : S128.Idx → EReal) := by
  funext y
  unfold iblk5
  rw [View.read_apply]
  show V c main_arg14 (((cfg5.win 4).blk t).view.emb y) = V c main_arg14 y
  congr 1
  funext a; apply Fin.ext
  match a with
  | ⟨0, _⟩ => show win5_4.index t 0 * 128 + 1 * (y 0).val = (y 0).val; rw [(maps5 t).2.2.2.2.2]; omega

/-- Entry (p, q) of point t's block of the result is entry (1000·t + p, q) of the result. -/
private theorem res5_emb (t : Fin cfg5.N) (p : Fin 1000) (q : Fin 128) (h : 1000 * t.val + p.val < 50000) :
    (((cfg5.win 5).blk t).view.emb (ix2 p q) : S50000x128.Idx) = ix2 ⟨1000 * t.val + p.val, h⟩ q := by
  funext a; apply Fin.ext
  match a with
  | ⟨0, _⟩ => show win5_5.index t 0 * 1000 + 1 * p.val = 1000 * t.val + p.val; rw [(maps5 t).2.2.1.1]; omega
  | ⟨1, _⟩ => show win5_5.index t 1 * 128 + 1 * q.val = q.val; rw [(maps5 t).2.2.1.2]; omega

/-- What point t writes back is block t of the array function. -/
private theorem flushed5 (c : Dev nD) (t : Fin cfg5.N) :
    (dat5 (F := Ideal) V c).flushed 5 t
      = ((cfg5.win 5).blk t).view.read (Elt Ideal)
          (addf (Cert.Layers.lnrelu (F := Ideal) (V c main_v60) (V c main_arg12) (V c main_arg13) (V c main_arg14)) (V c main_v48)) := by
  show (cfg5.win 5).cut (grid5.coords t) ((dat5 V c).after 5 t) = _
  rw [after5_5]
  unfold out5_5
  rw [View.canon_unit_zero offs2]
  simp only [View.ld_unit_zero (S := S1000x128) offs2, View.ld_unit_zero (S := S128) offs1]
  have ht : t.val < 50 := t.isLt
  funext y
  obtain ⟨p, q, rfl⟩ : ∃ (p : Fin 1000) (q : Fin 128), y = ix2 p q := ⟨y 0, y 1, eq_ix2 y⟩
  have hp : 1000 * t.val + p.val < 50000 := by have := p.isLt; omega
  rw [View.read_apply, res5_emb t p q hp, bias5_eq, scale5_eq, shift5_eq]
  exact entry_res (k5_pay1 (F := Ideal)) Cert.KernelIdeal.Pay.ln5_apply
    (iblk5 V c 0 t) (iblk5 V c 1 t) (V c main_arg12) (V c main_arg13) (V c main_arg14) (V c main_v60) (V c main_v48) t.val ht
    (fun p k => agg5_apply V c t p k (by have := p.isLt; omega))
    (fun p k => inp5_apply V c t p k (by have := p.isLt; omega)) p q

/-- Row r lies in the block of point r / 1000: the blocks tile the result. -/
private theorem cover5 (i : S50000x128.Idx) :
    ∃ t : Fin cfg5.N, (cfg5.win 5).flush t = true ∧ i ∈ ((cfg5.win 5).blk t).view.set := by
  have h0 : (i 0).val < 50000 := (i 0).isLt
  have h1 : (i 1).val < 128 := (i 1).isLt
  have hN : (i 0).val / 1000 < 50 := by omega
  refine ⟨⟨(i 0).val / 1000, hN⟩, flush5_5 _, ?_⟩
  obtain ⟨-, -, ⟨e0, e1⟩, -⟩ := maps5 ⟨(i 0).val / 1000, hN⟩
  show i ∈ ((View.whole main_v61).slice (win5_5.rect ⟨(i 0).val / 1000, hN⟩)).set
  rw [View.set_slice_whole, Rect.mem_set_unit]
  intro a
  match a with
  | ⟨0, _⟩ =>
    show win5_5.index ⟨(i 0).val / 1000, hN⟩ 0 * 1000 ≤ (i 0).val
      ∧ (i 0).val < win5_5.index ⟨(i 0).val / 1000, hN⟩ 0 * 1000 + 1000
    rw [e0]; show (i 0).val / 1000 * 1000 ≤ (i 0).val ∧ (i 0).val < (i 0).val / 1000 * 1000 + 1000; omega
  | ⟨1, _⟩ =>
    show win5_5.index ⟨(i 0).val / 1000, hN⟩ 1 * 128 ≤ (i 1).val
      ∧ (i 1).val < win5_5.index ⟨(i 0).val / 1000, hN⟩ 1 * 128 + 128
    rw [e1]; omega

/-- The third layer's launch: the rectified normalisation plus the layer's input. -/
theorem region5 (c : Dev nD) :
    (dat5 (F := Ideal) V c).arrAt 5 cfg5.N
      = addf (Cert.Layers.lnrelu (F := Ideal) (V c main_v60) (V c main_arg12) (V c main_arg13) (V c main_arg14)) (V c main_v48) :=
  (dat5 (F := Ideal) V c).arrAt_eq_of_cover 5
    (addf (Cert.Layers.lnrelu (F := Ideal) (V c main_v60) (V c main_arg12) (V c main_arg13) (V c main_arg14)) (V c main_v48))
    (fun t _ => flushed5 V c t) cover5

end Cert.KernelIdeal.RegionValue

end
-- ==== Proof.KernelKeep.lean ====
/-
  Buffers that keep their contents across the kernel program's host stretches and launches: a stretch none of whose
  operations writes a buffer leaves it alone, and so does a launch it is not an array of.  Chained, an argument, a
  scale vector of the first stretch or a residual input is, at every later boundary, what it was when made.
-/
import proofs.«414224_j34711925686444_1_alg».proof.Proof.Gen.KernelIdeal.Frame
import Idealize.ShloMosaic.Lib.StableHlo.Run

set_option maxRecDepth 16384

noncomputable section

namespace Cert.KernelIdeal.Walk

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## Buffers a stretch of host operations does not write -/

/-- The buffers the walks carry across the host stretches after the first: the arguments, the two scale vectors
    the first stretch computes, the three products and the two layer outputs that serve again as residual inputs. -/
abbrev carried : List (Ref sig .tc) :=
  [main_arg0, main_arg1, main_arg2, main_arg3, main_arg4, main_arg5, main_arg6, main_arg7, main_arg8, main_arg9, main_arg10, main_arg11, main_arg12, main_arg13, main_arg14, main_v21, main_v22, main_v23, main_v35, main_v36, main_v48, main_v49]

/-- The arguments. -/
abbrev argRefs : List (Ref sig .tc) := [main_arg0, main_arg1, main_arg2, main_arg3, main_arg4, main_arg5, main_arg6, main_arg7, main_arg8, main_arg9, main_arg10, main_arg11, main_arg12, main_arg13, main_arg14]

local macro "host_keep" ops:ident hb:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (fun e => absurd (e ▸ $hb) (by decide))))

theorem keep0 (c : Dev nD) (b : Ref sig .tc) (hb : b ∈ argRefs) :
    W1 m ρ c (Proc.devRef .tc b) = m ((c : Thread nD τ).loc b) := by
  show StableHlo.after hostOps0 (W0 m ρ c) (Proc.devRef .tc b) = W0 m ρ c (Proc.devRef .tc b)
  host_keep hostOps0 hb

theorem keep1 (c : Dev nD) (b : Ref sig .tc) (hb : b ∈ carried) :
    W3 m ρ c (Proc.devRef .tc b) = W2 m ρ c (Proc.devRef .tc b) := by
  show StableHlo.after hostOps1 (W2 m ρ c) (Proc.devRef .tc b) = _
  host_keep hostOps1 hb
theorem keep1' (c : Dev nD) (b : Ref sig .tc) (hb : b ∈ carried) :
    W4 m ρ c (Proc.devRef .tc b) = W3 m ρ c (Proc.devRef .tc b) := by
  show StableHlo.after hostOps1_1 (W3 m ρ c) (Proc.devRef .tc b) = _
  host_keep hostOps1_1 hb
theorem keep3 (c : Dev nD) (b : Ref sig .tc) (hb : b ∈ carried) :
    W7 m ρ c (Proc.devRef .tc b) = W6 m ρ c (Proc.devRef .tc b) := by
  show StableHlo.after hostOps3 (W6 m ρ c) (Proc.devRef .tc b) = _
  host_keep hostOps3 hb
theorem keep3' (c : Dev nD) (b : Ref sig .tc) (hb : b ∈ carried) :
    W8 m ρ c (Proc.devRef .tc b) = W7 m ρ c (Proc.devRef .tc b) := by
  show StableHlo.after hostOps3_1 (W7 m ρ c) (Proc.devRef .tc b) = _
  host_keep hostOps3_1 hb
theorem keep5 (c : Dev nD) (b : Ref sig .tc) (hb : b ∈ carried) :
    W11 m ρ c (Proc.devRef .tc b) = W10 m ρ c (Proc.devRef .tc b) := by
  show StableHlo.after hostOps5 (W10 m ρ c) (Proc.devRef .tc b) = _
  host_keep hostOps5 hb
theorem keep5' (c : Dev nD) (b : Ref sig .tc) (hb : b ∈ carried) :
    W12 m ρ c (Proc.devRef .tc b) = W11 m ρ c (Proc.devRef .tc b) := by
  show StableHlo.after hostOps5_1 (W11 m ρ c) (Proc.devRef .tc b) = _
  host_keep hostOps5_1 hb

/-! ## Walking a buffer down to the first boundary -/

/-- The buffers no launch of the first layer touches and no stretch up to the second launch writes. -/
abbrev low : List (Ref sig .tc) :=
  [main_arg1, main_arg2, main_arg4, main_arg5, main_arg6, main_arg7, main_arg8, main_arg9, main_arg10, main_arg11,
   main_arg12, main_arg13, main_arg14, main_v21, main_v22]

theorem down4 (c : Dev nD) (b : Ref sig .tc) (hb : b ∈ low) :
    W4 m ρ c (Proc.devRef .tc b) = W1 m ρ c (Proc.devRef .tc b) :=
  have hc : b ∈ carried := (by decide : ∀ x ∈ low, x ∈ carried) b hb
  (keep1' m ρ c b hc).trans ((keep1 m ρ c b hc).trans
    (W2_of_ne m ρ c b fun w e => (by decide : ∀ w, Pipeline.arrRef spec0 w ∉ low) w (e ▸ hb)))

/-- The buffers the second layer's launches and stretches leave alone as well. -/
abbrev mid : List (Ref sig .tc) :=
  [main_arg1, main_arg2, main_arg8, main_arg9, main_arg10, main_arg11, main_arg12, main_arg13, main_arg14, main_v21, main_v22]

theorem down8 (c : Dev nD) (b : Ref sig .tc) (hb : b ∈ mid) :
    W8 m ρ c (Proc.devRef .tc b) = W1 m ρ c (Proc.devRef .tc b) :=
  have hc : b ∈ carried := (by decide : ∀ x ∈ mid, x ∈ carried) b hb
  have hl : b ∈ low := (by decide : ∀ x ∈ mid, x ∈ low) b hb
  (keep3' m ρ c b hc).trans ((keep3 m ρ c b hc).trans
    ((W6_of_ne m ρ c b fun w e => (by decide : ∀ w, Pipeline.arrRef spec2 w ∉ mid) w (e ▸ hb)).trans
      ((W5_of_ne m ρ c b fun w e => (by decide : ∀ w, Pipeline.arrRef spec1 w ∉ mid) w (e ▸ hb)).trans
        (down4 m ρ c b hl))))

/-- The buffers the third layer's first launch and stretches leave alone as well. -/
abbrev high : List (Ref sig .tc) :=
  [main_arg1, main_arg2, main_arg12, main_arg13, main_arg14, main_v21, main_v22]

theorem down12 (c : Dev nD) (b : Ref sig .tc) (hb : b ∈ high) :
    W12 m ρ c (Proc.devRef .tc b) = W1 m ρ c (Proc.devRef .tc b) :=
  have hc : b ∈ carried := (by decide : ∀ x ∈ high, x ∈ carried) b hb
  have hm : b ∈ mid := (by decide : ∀ x ∈ high, x ∈ mid) b hb
  (keep5' m ρ c b hc).trans ((keep5 m ρ c b hc).trans
    ((W10_of_ne m ρ c b fun w e => (by decide : ∀ w, Pipeline.arrRef spec4 w ∉ high) w (e ▸ hb)).trans
      ((W9_of_ne m ρ c b fun w e => (by decide : ∀ w, Pipeline.arrRef spec3 w ∉ high) w (e ▸ hb)).trans
        (down8 m ρ c b hm))))

/-- The two index arrays and the two scale vectors at the second and third layers' host stretches. -/
abbrev scales : List (Ref sig .tc) := [main_arg1, main_arg2, main_v21, main_v22]

theorem at2 (c : Dev nD) (b : Ref sig .tc) (hb : b ∈ scales) :
    W2 m ρ c (Proc.devRef .tc b) = W1 m ρ c (Proc.devRef .tc b) :=
  W2_of_ne m ρ c b fun w e => (by decide : ∀ w, Pipeline.arrRef spec0 w ∉ scales) w (e ▸ hb)

theorem at6 (c : Dev nD) (b : Ref sig .tc) (hb : b ∈ scales) :
    W6 m ρ c (Proc.devRef .tc b) = W1 m ρ c (Proc.devRef .tc b) :=
  (W6_of_ne m ρ c b fun w e => (by decide : ∀ w, Pipeline.arrRef spec2 w ∉ scales) w (e ▸ hb)).trans
    ((W5_of_ne m ρ c b fun w e => (by decide : ∀ w, Pipeline.arrRef spec1 w ∉ scales) w (e ▸ hb)).trans
      (down4 m ρ c b ((by decide : ∀ x ∈ scales, x ∈ low) b hb)))

theorem at10 (c : Dev nD) (b : Ref sig .tc) (hb : b ∈ scales) :
    W10 m ρ c (Proc.devRef .tc b) = W1 m ρ c (Proc.devRef .tc b) :=
  (W10_of_ne m ρ c b fun w e => (by decide : ∀ w, Pipeline.arrRef spec4 w ∉ scales) w (e ▸ hb)).trans
    ((W9_of_ne m ρ c b fun w e => (by decide : ∀ w, Pipeline.arrRef spec3 w ∉ scales) w (e ▸ hb)).trans
      (down8 m ρ c b ((by decide : ∀ x ∈ scales, x ∈ mid) b hb)))

end Cert.KernelIdeal.Walk

end
-- ==== Proof.Take.lean ====
/-
  The kernel program gathers the message rows with a range test: a row whose (wrapped) source index lies outside
  [0, 49999] is replaced by a fill value.  Where every source index lies in [0, 50000) the test passes on every edge, the
  selection keeps every gathered row, and the guarded gather is the plain gather of Layers.lean.
-/
import proofs.«414224_j34711925686444_1_alg».proof.KernelIdeal
import proofs.«414224_j34711925686444_1_alg».proof.Proof.Gen.KernelIdeal
import proofs.«414224_j34711925686444_1_alg».proof.Proof.Gen.ReferenceIdeal
import proofs.«414224_j34711925686444_1_alg».proof.Proof.Layers
import Idealize.ShloMosaic.Lib.ValueIdx
import Idealize.ShloMosaic.Lib.StableHlo.Predicate
import Idealize.ShloMosaic.Lib.ReduceAll

noncomputable section

namespace Cert.KernelIdeal.Take

open Idealize.ShloMosaic Idealize.ShloMosaic.ValueIdx Cert.KernelIdeal Cert.KernelIdeal.Facts₀

variable {F : FTy → Type} [FloatOps F]

/-- The wrapped source indices as the column of start indices. -/
def startIdx (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 50000#32))) src)

/-- Per edge: is the start index in [0, 49999]? -/
def inRange (src : IVec S640000 32) : IVec S640000 1 :=
  Host.reduce IntOp.andi
    (andi (cmpi .sge (startIdx src) (broadcastInDim S640000x1 ![] bcast_S_S640000x1 (constantI S_ 32 0#32)))
      (cmpi .sle (startIdx src) (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-- The guarded gather: the gathered row where the index is in range, the fill word elsewhere. -/
def takeFill (hw : FVec F S50000x128 .f32) (src : IVec S640000 32) : FVec F S640000x128 .f32 :=
  select (broadcastInDim S640000x128 ![0] bcast_S640000_S640000x128_0 (inRange src))
    (Host.gather gather_S50000x128_S640000x1_S640000x128_1_0_n_n_0_1_1128 hw (startIdx src))
    (broadcastInDim S640000x128 ![] bcast_S_S640000x128 (constant S_ .f32 0x7FC00000#32))

/-- A left fold by `and` from 1 over bits that are all 1 is 1. -/
private theorem foldl_andi_ones {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a, show IntOp.andi 1#1 1#1 = 1#1 from by decide]
    exact ih

/-- A nonnegative index is not wrapped: the selection returns the index itself. -/
private theorem wrapped_apply (src : IVec S640000 32) (k : S640000.Idx) (h0 : IntOp.cmpi .sge (src k) 0#32 = 1#1) :
    select (cmpi .slt src (broadcastInDim S640000 ![] bcast_S_S640000 (constantI S_ 32 0#32)))
      (addi src (broadcastInDim S640000 ![] bcast_S_S640000 (constantI S_ 32 50000#32))) src k = src k := by
  show Scalar.select (IntOp.cmpi .slt (src k) 0#32) _ (src k) = src k
  have hz : IntOp.cmpi .slt (src k) 0#32 = 0#1 := by
    apply eq_zero_of_ne_one
    rw [IntOp.cmpi_slt]
    rw [IntOp.cmpi_sge] at h0
    omega
  rw [hz, select_zero]

/-- A word in [0, 50000) passes the test 0 ≤ w ≤ 49999. -/
private theorem test_one (w : BitVec 32) (h0 : IntOp.cmpi .sge w 0#32 = 1#1) (h1 : IntOp.cmpi .slt w 50000#32 = 1#1) :
    IntOp.andi (IntOp.cmpi .sge w 0#32) (IntOp.cmpi .sle w 49999#32) = 1#1 := by
  have h2 : IntOp.cmpi .sle w 49999#32 = 1#1 := by
    rw [IntOp.cmpi_sle]
    rw [IntOp.cmpi_slt] at h1
    have e1 : (50000#32 : BitVec 32).toInt = 50000 := by decide
    have e2 : (49999#32 : BitVec 32).toInt = 49999 := by decide
    omega
  rw [h0, h2]
  decide

/-- With every source index in [0, 50000) the range test passes on every edge. -/
private theorem inRange_one (src : IVec S640000 32)
    (hsrc : ∀ k : S640000.Idx, IntOp.cmpi .sge (src k) 0#32 = 1#1 ∧ IntOp.cmpi .slt (src k) 50000#32 = 1#1)
    (k : S640000.Idx) : inRange src k = 1#1 := by
  unfold inRange
  rw [Host.reduce_eq_foldl]
  show List.foldl _ 1#1 _ = 1#1
  apply foldl_andi_ones
  intro i
  show IntOp.andi (IntOp.cmpi .sge (startIdx src i) 0#32) (IntOp.cmpi .sle (startIdx src i) 49999#32) = 1#1
  unfold startIdx
  simp only [broadcastInDim]
  rw [wrapped_apply src _ (hsrc _).1]
  exact test_one _ (hsrc _).1 (hsrc _).2

/-- With every source index in [0, 50000) the guarded gather is the plain one. -/
theorem takeFill_eq (hw : FVec F S50000x128 .f32) (src : IVec S640000 32)
    (hsrc : ∀ e : Fin 640000, IntOp.cmpi .sge (src (ix1 e)) 0#32 = 1#1 ∧ IntOp.cmpi .slt (src (ix1 e)) 50000#32 = 1#1) :
    takeFill hw src = Cert.Layers.gathered (F := F) hw src := by
  have hsrc' : ∀ k : S640000.Idx, IntOp.cmpi .sge (src k) 0#32 = 1#1 ∧ IntOp.cmpi .slt (src k) 50000#32 = 1#1 :=
    fun k => by rw [eq_ix1 k]; exact hsrc _
  funext i
  unfold takeFill
  rw [select_apply]
  have hm : broadcastInDim S640000x128 ![0] bcast_S640000_S640000x128_0 (inRange src) i = 1#1 := by
    simp only [broadcastInDim]
    exact inRange_one src hsrc' _
  rw [hm, select_one]
  rfl

end Cert.KernelIdeal.Take

end
-- ==== Proof.KernelHost0.lean ====
/-
  What the kernel program's host operations compute.  The first stretch: the per-edge scale dinv[src]·dinv[dst] and
  the per-node scale dinv², the reference's own terms.  The stretches before a normalisation launch: the guarded gather
  of the product's rows, scaled per edge, added up at the targets, plus the product scaled per node (`kagg`), which
  with the source indices in range is the aggregation of Layers.lean.
-/
import proofs.«414224_j34711925686444_1_alg».proof.Proof.Gen.KernelIdeal.Frame
import proofs.«414224_j34711925686444_1_alg».proof.Proof.Gen.ReferenceIdeal
import proofs.«414224_j34711925686444_1_alg».proof.Proof.Layers
import proofs.«414224_j34711925686444_1_alg».proof.Proof.Take
import Idealize.ShloMosaic.Lib.StableHlo.Run

set_option maxRecDepth 16384

noncomputable section

namespace Cert.KernelIdeal.Walk

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## What the host stretches compute -/

/-- One layer's aggregation from the gathered messages `msg`, as the kernel program's host operations spell it:
    the messages scaled per edge by `es`, added up at the targets, plus `hw` scaled per node by `ss`. -/
def kaggOf (hw : FVec F S50000x128 .f32) (msg : FVec F S640000x128 .f32) (dst : IVec S640000 32) (es : FVec F S640000 .f32)
    (ss : FVec F S50000 .f32) : FVec F S50000x128 .f32 :=
  addf (Host.scatterAdd scatter_S50000x128_S640000x1_S640000x128_1_0_0_1
      (broadcastInDim S50000x128 ![] Facts₀.bcast_S_S50000x128 (constant S_ .f32 0x00000000#32))
      (broadcastInDim S640000x1 ![0] Facts₀.bcast_S640000_S640000x1_0 dst)
      (mulf msg (broadcastInDim S640000x128 ![0, 1] Facts₀.bcast_S640000x1_S640000x128_0_1
        (broadcastInDim S640000x1 ![0] Facts₀.bcast_S640000_S640000x1_0 es))))
    (mulf hw (broadcastInDim S50000x128 ![0, 1] Facts₀.bcast_S50000x1_S50000x128_0_1
      (broadcastInDim S50000x1 ![0] Facts₀.bcast_S50000_S50000x1_0 ss)))

/-- One layer's aggregation with the guarded gather of the rows of `hw` as the messages. -/
def kagg (hw : FVec F S50000x128 .f32) (src dst : IVec S640000 32) (es : FVec F S640000 .f32) (ss : FVec F S50000 .f32) :
    FVec F S50000x128 .f32 :=
  kaggOf hw (Take.takeFill hw src) dst es ss

/-- With the source indices in range it is the aggregation of Layers.lean. -/
theorem kagg_eq (hw : FVec F S50000x128 .f32) (src dst : IVec S640000 32)
    (hsrc : ∀ e : Fin 640000, IntOp.cmpi .sge (src (ValueIdx.ix1 e)) 0#32 = 1#1 ∧ IntOp.cmpi .slt (src (ValueIdx.ix1 e)) 50000#32 = 1#1) :
    kagg hw src dst (Cert.Layers.edgeScale (F := F) src dst) (mulf (Cert.Layers.dinv (F := F) dst) (Cert.Layers.dinv (F := F) dst))
      = Cert.Layers.agg (F := F) hw src dst := by
  unfold kagg kaggOf
  rw [Take.takeFill_eq hw src hsrc]
  rfl

set_option maxHeartbeats 4000000 in
/-- The first stretch computes the per-edge scale … -/
theorem W1_v21 (c : Dev nD) :
    W1 m ρ c (Proc.devRef .tc main_v21)
      = Cert.Layers.edgeScale (F := F) (m ((c : Thread nD τ).loc main_arg1)) (m ((c : Thread nD τ).loc main_arg2)) := by
  show StableHlo.after hostOps0 (W0 m ρ c) (Proc.devRef .tc main_v21) = _
  after_results_simp
  have e1 : W0 m ρ c (Proc.devRef .tc main_arg1) = m ((c : Thread nD τ).loc main_arg1) := rfl
  have e2 : W0 m ρ c (Proc.devRef .tc main_arg2) = m ((c : Thread nD τ).loc main_arg2) := rfl
  rw [e1, e2]
  unfold Cert.Layers.edgeScale Cert.Layers.dinv Cert.Layers.col Cert.Layers.wrap
  rfl

set_option maxHeartbeats 4000000 in
/-- … and the per-node scale. -/
theorem W1_v22 (c : Dev nD) :
    W1 m ρ c (Proc.devRef .tc main_v22)
      = mulf (Cert.Layers.dinv (F := F) (m ((c : Thread nD τ).loc main_arg2))) (Cert.Layers.dinv (F := F) (m ((c : Thread nD τ).loc main_arg2))) := by
  show StableHlo.after hostOps0 (W0 m ρ c) (Proc.devRef .tc main_v22) = _
  after_results_simp
  have e2 : W0 m ρ c (Proc.devRef .tc main_arg2) = m ((c : Thread nD τ).loc main_arg2) := rfl
  rw [e2]
  unfold Cert.Layers.dinv
  rfl

end Cert.KernelIdeal.Walk

end
-- ==== Proof.KernelHost1.lean ====
/-
  The two stretches between the first product launch and the first normalisation launch, read back: the guarded
  gather of the product's rows, then the scaling and the sums; the buffer the normalisation takes holds `kagg` of the
  product and of the index and scale buffers as the stretches find them.
-/
import proofs.«414224_j34711925686444_1_alg».proof.Proof.Gen.KernelIdeal.Frame
import proofs.«414224_j34711925686444_1_alg».proof.Proof.KernelHost0
import proofs.«414224_j34711925686444_1_alg».proof.Proof.KernelKeep
import Idealize.ShloMosaic.Lib.StableHlo.Run

set_option maxRecDepth 16384

noncomputable section

namespace Cert.KernelIdeal.Walk

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The stretch of the guarded gather, from any contents `W`: its last buffer holds the guarded gather of the
    product's rows at the source indices. -/
theorem take_1 (W : Valuation τ sig (Elt F)) :
    StableHlo.after hostOps1 W (Proc.devRef .tc main_v24)
      = Take.takeFill (W (Proc.devRef .tc main_v23)) (W (Proc.devRef .tc main_arg1)) := by
  unfold Take.takeFill Take.inRange Take.startIdx
  after_results_simp
  simp only [StableHlo.TRef.ofBuf, StableHlo.TRef.toBuf, cast_eq]
  try rfl

/-- The stretch that scales and adds up, from any contents `W`. -/
theorem sum_1 (W : Valuation τ sig (Elt F)) :
    StableHlo.after hostOps1_1 W (Proc.devRef .tc main_v34)
      = kaggOf (W (Proc.devRef .tc main_v23)) (W (Proc.devRef .tc main_v24)) (W (Proc.devRef .tc main_arg2))
          (W (Proc.devRef .tc main_v21)) (W (Proc.devRef .tc main_v22)) := by
  unfold kaggOf
  after_results_simp
  try rfl

/-- The two stretches together, from the boundary before them. -/
theorem W4_v34 (c : Dev nD) :
    W4 m ρ c (Proc.devRef .tc main_v34)
      = kagg (W2 m ρ c (Proc.devRef .tc main_v23)) (W2 m ρ c (Proc.devRef .tc main_arg1)) (W2 m ρ c (Proc.devRef .tc main_arg2))
          (W2 m ρ c (Proc.devRef .tc main_v21)) (W2 m ρ c (Proc.devRef .tc main_v22)) := by
  show StableHlo.after hostOps1_1 (W3 m ρ c) (Proc.devRef .tc main_v34) = _
  rw [sum_1]
  show kaggOf (W3 m ρ c (Proc.devRef .tc main_v23)) (StableHlo.after hostOps1 (W2 m ρ c) (Proc.devRef .tc main_v24))
      (W3 m ρ c (Proc.devRef .tc main_arg2)) (W3 m ρ c (Proc.devRef .tc main_v21)) (W3 m ρ c (Proc.devRef .tc main_v22)) = _
  rw [take_1, keep1 m ρ c main_v23 (by decide), keep1 m ρ c main_arg2 (by decide), keep1 m ρ c main_v21 (by decide),
    keep1 m ρ c main_v22 (by decide)]
  rfl

end Cert.KernelIdeal.Walk

end
-- ==== Proof.KernelHost3.lean ====
/-
  The two stretches between the second product launch and the second normalisation launch, read back.
-/
import proofs.«414224_j34711925686444_1_alg».proof.Proof.Gen.KernelIdeal.Frame
import proofs.«414224_j34711925686444_1_alg».proof.Proof.KernelHost0
import proofs.«414224_j34711925686444_1_alg».proof.Proof.KernelKeep
import Idealize.ShloMosaic.Lib.StableHlo.Run

set_option maxRecDepth 16384

noncomputable section

namespace Cert.KernelIdeal.Walk

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The stretch of the guarded gather, from any contents `W`: its last buffer holds the guarded gather of the
    product's rows at the source indices. -/
theorem take_3 (W : Valuation τ sig (Elt F)) :
    StableHlo.after hostOps3 W (Proc.devRef .tc main_v37)
      = Take.takeFill (W (Proc.devRef .tc main_v36)) (W (Proc.devRef .tc main_arg1)) := by
  unfold Take.takeFill Take.inRange Take.startIdx
  after_results_simp
  simp only [StableHlo.TRef.ofBuf, StableHlo.TRef.toBuf, cast_eq]
  try rfl

/-- The stretch that scales and adds up, from any contents `W`. -/
theorem sum_3 (W : Valuation τ sig (Elt F)) :
    StableHlo.after hostOps3_1 W (Proc.devRef .tc main_v47)
      = kaggOf (W (Proc.devRef .tc main_v36)) (W (Proc.devRef .tc main_v37)) (W (Proc.devRef .tc main_arg2))
          (W (Proc.devRef .tc main_v21)) (W (Proc.devRef .tc main_v22)) := by
  unfold kaggOf
  after_results_simp
  try rfl

/-- The two stretches together, from the boundary before them. -/
theorem W8_v47 (c : Dev nD) :
    W8 m ρ c (Proc.devRef .tc main_v47)
      = kagg (W6 m ρ c (Proc.devRef .tc main_v36)) (W6 m ρ c (Proc.devRef .tc main_arg1)) (W6 m ρ c (Proc.devRef .tc main_arg2))
          (W6 m ρ c (Proc.devRef .tc main_v21)) (W6 m ρ c (Proc.devRef .tc main_v22)) := by
  show StableHlo.after hostOps3_1 (W7 m ρ c) (Proc.devRef .tc main_v47) = _
  rw [sum_3]
  show kaggOf (W7 m ρ c (Proc.devRef .tc main_v36)) (StableHlo.after hostOps3 (W6 m ρ c) (Proc.devRef .tc main_v37))
      (W7 m ρ c (Proc.devRef .tc main_arg2)) (W7 m ρ c (Proc.devRef .tc main_v21)) (W7 m ρ c (Proc.devRef .tc main_v22)) = _
  rw [take_3, keep3 m ρ c main_v36 (by decide), keep3 m ρ c main_arg2 (by decide), keep3 m ρ c main_v21 (by decide),
    keep3 m ρ c main_v22 (by decide)]
  rfl

end Cert.KernelIdeal.Walk

end
-- ==== Proof.KernelHost5.lean ====
/-
  The two stretches between the third product launch and the third normalisation launch, read back.
-/
import proofs.«414224_j34711925686444_1_alg».proof.Proof.Gen.KernelIdeal.Frame
import proofs.«414224_j34711925686444_1_alg».proof.Proof.KernelHost0
import proofs.«414224_j34711925686444_1_alg».proof.Proof.KernelKeep
import Idealize.ShloMosaic.Lib.StableHlo.Run

set_option maxRecDepth 16384

noncomputable section

namespace Cert.KernelIdeal.Walk

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The stretch of the guarded gather, from any contents `W`: its last buffer holds the guarded gather of the
    product's rows at the source indices. -/
theorem take_5 (W : Valuation τ sig (Elt F)) :
    StableHlo.after hostOps5 W (Proc.devRef .tc main_v50)
      = Take.takeFill (W (Proc.devRef .tc main_v49)) (W (Proc.devRef .tc main_arg1)) := by
  unfold Take.takeFill Take.inRange Take.startIdx
  after_results_simp
  simp only [StableHlo.TRef.ofBuf, StableHlo.TRef.toBuf, cast_eq]
  try rfl

/-- The stretch that scales and adds up, from any contents `W`. -/
theorem sum_5 (W : Valuation τ sig (Elt F)) :
    StableHlo.after hostOps5_1 W (Proc.devRef .tc main_v60)
      = kaggOf (W (Proc.devRef .tc main_v49)) (W (Proc.devRef .tc main_v50)) (W (Proc.devRef .tc main_arg2))
          (W (Proc.devRef .tc main_v21)) (W (Proc.devRef .tc main_v22)) := by
  unfold kaggOf
  after_results_simp
  try rfl

/-- The two stretches together, from the boundary before them. -/
theorem W12_v60 (c : Dev nD) :
    W12 m ρ c (Proc.devRef .tc main_v60)
      = kagg (W10 m ρ c (Proc.devRef .tc main_v49)) (W10 m ρ c (Proc.devRef .tc main_arg1)) (W10 m ρ c (Proc.devRef .tc main_arg2))
          (W10 m ρ c (Proc.devRef .tc main_v21)) (W10 m ρ c (Proc.devRef .tc main_v22)) := by
  show StableHlo.after hostOps5_1 (W11 m ρ c) (Proc.devRef .tc main_v60) = _
  rw [sum_5]
  show kaggOf (W11 m ρ c (Proc.devRef .tc main_v49)) (StableHlo.after hostOps5 (W10 m ρ c) (Proc.devRef .tc main_v50))
      (W11 m ρ c (Proc.devRef .tc main_arg2)) (W11 m ρ c (Proc.devRef .tc main_v21)) (W11 m ρ c (Proc.devRef .tc main_v22)) = _
  rw [take_5, keep5 m ρ c main_v49 (by decide), keep5 m ρ c main_arg2 (by decide), keep5 m ρ c main_v21 (by decide),
    keep5 m ρ c main_v22 (by decide)]
  rfl

end Cert.KernelIdeal.Walk

end
-- ==== Proof.KernelChain.lean ====
/-
  The idealized kernel program's buffer contents, boundary by boundary, as functions of the argument arrays, on the
  extended reals and with the source indices in range.  Each launch leaves a layer function of what it found (RegionMM,
  RegionLN), each pair of host stretches the layer's aggregation (KernelHost), and what nobody writes is kept
  (KernelKeep).  Chained: the result buffer ends holding `Layers.net` of the arguments.
-/
import proofs.«414224_j34711925686444_1_alg».proof.Proof.Gen.KernelIdeal.Frame
import proofs.«414224_j34711925686444_1_alg».proof.Proof.Gen.ReferenceIdeal
import proofs.«414224_j34711925686444_1_alg».proof.Proof.Layers
import proofs.«414224_j34711925686444_1_alg».proof.Proof.RegionMM
import proofs.«414224_j34711925686444_1_alg».proof.Proof.RegionLN
import proofs.«414224_j34711925686444_1_alg».proof.Proof.KernelKeep
import proofs.«414224_j34711925686444_1_alg».proof.Proof.KernelHost0
import proofs.«414224_j34711925686444_1_alg».proof.Proof.KernelHost1
import proofs.«414224_j34711925686444_1_alg».proof.Proof.KernelHost3
import proofs.«414224_j34711925686444_1_alg».proof.Proof.KernelHost5

set_option maxRecDepth 16384

noncomputable section

namespace Cert.KernelIdeal.Walk

open Idealize.ShloMosaic Idealize.ShloMosaic.TcCoe Idealize.SL.Sem
open Cert.KernelIdeal Cert.KernelIdeal.Gen

/-! ## The boundaries at the extended reals, with the source indices in range -/

section Chain

variable (m : (ℓ : Loc nD τ sig) → Buf (Elt Ideal) ℓ) (ρ : Dev nD → PrngReg)
variable (hsrc : ∀ (c : Dev nD) (e : Fin 640000),
  IntOp.cmpi .sge (m ((c : Thread nD τ).loc main_arg1) (ValueIdx.ix1 e)) 0#32 = 1#1
    ∧ IntOp.cmpi .slt (m ((c : Thread nD τ).loc main_arg1) (ValueIdx.ix1 e)) 50000#32 = 1#1)

/-- An argument at the first boundary is as launched. -/
theorem arg_at1 (c : Dev nD) (b : Ref sig .tc) (hb : b ∈ argRefs) :
    W1 m ρ c (Proc.devRef .tc b) = m ((c : Thread nD τ).loc b) := keep0 m ρ c b hb

/-- The first product. -/
theorem hw1 (c : Dev nD) :
    W2 m ρ c (Proc.devRef .tc main_v23) = Cert.Layers.dense (F := Ideal) (m ((c : Thread nD τ).loc main_arg0)) (m ((c : Thread nD τ).loc main_arg3)) := by
  refine (W2_arr m ρ c 2).trans ?_
  rw [RegionValue.region0 (V1 m ρ) c]
  show Cert.Layers.dense (F := Ideal) (W1 m ρ c (Proc.devRef .tc main_arg0)) (W1 m ρ c (Proc.devRef .tc main_arg3)) = _
  rw [arg_at1 m ρ c main_arg0 (by decide), arg_at1 m ρ c main_arg3 (by decide)]

include hsrc

/-- The first aggregation. -/
theorem agg1 (c : Dev nD) :
    W4 m ρ c (Proc.devRef .tc main_v34)
      = Cert.Layers.agg (F := Ideal) (Cert.Layers.dense (F := Ideal) (m ((c : Thread nD τ).loc main_arg0)) (m ((c : Thread nD τ).loc main_arg3))) (m ((c : Thread nD τ).loc main_arg1)) (m ((c : Thread nD τ).loc main_arg2)) := by
  rw [W4_v34, hw1 m ρ c, at2 m ρ c main_arg1 (by decide), at2 m ρ c main_arg2 (by decide), at2 m ρ c main_v21 (by decide),
    at2 m ρ c main_v22 (by decide), arg_at1 m ρ c main_arg1 (by decide), arg_at1 m ρ c main_arg2 (by decide), W1_v21, W1_v22]
  exact kagg_eq _ _ _ (hsrc c)

/-- The first layer's output. -/
theorem h1 (c : Dev nD) : W5 m ρ c (Proc.devRef .tc main_v35) = (Cert.Layers.layer1 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) := by
  refine (W5_arr m ρ c 4).trans ?_
  rw [RegionValue.region1 (V4 m ρ) c]
  show Cert.Layers.lnrelu (F := Ideal) (W4 m ρ c (Proc.devRef .tc main_v34)) (W4 m ρ c (Proc.devRef .tc main_arg4)) (W4 m ρ c (Proc.devRef .tc main_arg5)) (W4 m ρ c (Proc.devRef .tc main_arg6)) = _
  rw [agg1 m ρ hsrc c, down4 m ρ c main_arg4 (by decide), down4 m ρ c main_arg5 (by decide), down4 m ρ c main_arg6 (by decide),
    arg_at1 m ρ c main_arg4 (by decide), arg_at1 m ρ c main_arg5 (by decide), arg_at1 m ρ c main_arg6 (by decide)]
  rfl

/-- The second product. -/
theorem hw2 (c : Dev nD) : W6 m ρ c (Proc.devRef .tc main_v36) = Cert.Layers.dense (F := Ideal) (Cert.Layers.layer1 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) := by
  refine (W6_arr m ρ c 2).trans ?_
  rw [RegionValue.region2 (V5 m ρ) c]
  show Cert.Layers.dense (F := Ideal) (W5 m ρ c (Proc.devRef .tc main_v35)) (W5 m ρ c (Proc.devRef .tc main_arg7)) = _
  rw [h1 m ρ hsrc c, W5_of_ne m ρ c main_arg7 (by decide), down4 m ρ c main_arg7 (by decide), arg_at1 m ρ c main_arg7 (by decide)]

/-- The second aggregation. -/
theorem agg2 (c : Dev nD) :
    W8 m ρ c (Proc.devRef .tc main_v47) = Cert.Layers.agg (F := Ideal) (Cert.Layers.dense (F := Ideal) (Cert.Layers.layer1 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7))) (m ((c : Thread nD τ).loc main_arg1)) (m ((c : Thread nD τ).loc main_arg2)) := by
  rw [W8_v47, hw2 m ρ hsrc c, at6 m ρ c main_arg1 (by decide), at6 m ρ c main_arg2 (by decide), at6 m ρ c main_v21 (by decide),
    at6 m ρ c main_v22 (by decide), arg_at1 m ρ c main_arg1 (by decide), arg_at1 m ρ c main_arg2 (by decide), W1_v21, W1_v22]
  exact kagg_eq _ _ _ (hsrc c)

/-- The first layer's output is still there when the second normalisation starts. -/
theorem h1_at8 (c : Dev nD) : W8 m ρ c (Proc.devRef .tc main_v35) = (Cert.Layers.layer1 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) := by
  rw [keep3' m ρ c main_v35 (by decide), keep3 m ρ c main_v35 (by decide)]
  exact ((W6_arr m ρ c 0).trans (((dat2 (V5 m ρ) c).arrAt_in 0 rfl _).trans (A_eq2 (V5 m ρ) c 0))).trans (h1 m ρ hsrc c)

/-- The second layer's output. -/
theorem h2 (c : Dev nD) : W9 m ρ c (Proc.devRef .tc main_v48) = (Cert.Layers.layerRes (F := Ideal) (Cert.Layers.layer1 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) (m ((c : Thread nD τ).loc main_arg8)) (m ((c : Thread nD τ).loc main_arg9)) (m ((c : Thread nD τ).loc main_arg10)) (m ((c : Thread nD τ).loc main_arg1)) (m ((c : Thread nD τ).loc main_arg2))) := by
  refine (W9_arr m ρ c 5).trans ?_
  rw [RegionValue.region3 (V8 m ρ) c]
  show addf (Cert.Layers.lnrelu (F := Ideal) (W8 m ρ c (Proc.devRef .tc main_v47)) (W8 m ρ c (Proc.devRef .tc main_arg8)) (W8 m ρ c (Proc.devRef .tc main_arg9)) (W8 m ρ c (Proc.devRef .tc main_arg10))) (W8 m ρ c (Proc.devRef .tc main_v35)) = _
  rw [agg2 m ρ hsrc c, h1_at8 m ρ hsrc c, down8 m ρ c main_arg8 (by decide), down8 m ρ c main_arg9 (by decide), down8 m ρ c main_arg10 (by decide),
    arg_at1 m ρ c main_arg8 (by decide), arg_at1 m ρ c main_arg9 (by decide), arg_at1 m ρ c main_arg10 (by decide)]
  rfl

/-- The third product. -/
theorem hw3 (c : Dev nD) : W10 m ρ c (Proc.devRef .tc main_v49) = Cert.Layers.dense (F := Ideal) (Cert.Layers.layerRes (F := Ideal) (Cert.Layers.layer1 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) (m ((c : Thread nD τ).loc main_arg8)) (m ((c : Thread nD τ).loc main_arg9)) (m ((c : Thread nD τ).loc main_arg10)) (m ((c : Thread nD τ).loc main_arg1)) (m ((c : Thread nD τ).loc main_arg2))) (m ((c : Thread nD τ).loc main_arg11)) := by
  refine (W10_arr m ρ c 2).trans ?_
  rw [RegionValue.region4 (V9 m ρ) c]
  show Cert.Layers.dense (F := Ideal) (W9 m ρ c (Proc.devRef .tc main_v48)) (W9 m ρ c (Proc.devRef .tc main_arg11)) = _
  rw [h2 m ρ hsrc c, W9_of_ne m ρ c main_arg11 (by decide), down8 m ρ c main_arg11 (by decide), arg_at1 m ρ c main_arg11 (by decide)]

/-- The third aggregation. -/
theorem agg3 (c : Dev nD) :
    W12 m ρ c (Proc.devRef .tc main_v60) = Cert.Layers.agg (F := Ideal) (Cert.Layers.dense (F := Ideal) (Cert.Layers.layerRes (F := Ideal) (Cert.Layers.layer1 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) (m ((c : Thread nD τ).loc main_arg8)) (m ((c : Thread nD τ).loc main_arg9)) (m ((c : Thread nD τ).loc main_arg10)) (m ((c : Thread nD τ).loc main_arg1)) (m ((c : Thread nD τ).loc main_arg2))) (m ((c : Thread nD τ).loc main_arg11))) (m ((c : Thread nD τ).loc main_arg1)) (m ((c : Thread nD τ).loc main_arg2)) := by
  rw [W12_v60, hw3 m ρ hsrc c, at10 m ρ c main_arg1 (by decide), at10 m ρ c main_arg2 (by decide), at10 m ρ c main_v21 (by decide),
    at10 m ρ c main_v22 (by decide), arg_at1 m ρ c main_arg1 (by decide), arg_at1 m ρ c main_arg2 (by decide), W1_v21, W1_v22]
  exact kagg_eq _ _ _ (hsrc c)

/-- The second layer's output is still there when the third normalisation starts. -/
theorem h2_at12 (c : Dev nD) : W12 m ρ c (Proc.devRef .tc main_v48) = (Cert.Layers.layerRes (F := Ideal) (Cert.Layers.layer1 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg1)) (m ((c : Thread nD τ).loc main_arg2))) (m ((c : Thread nD τ).loc main_arg7)) (m ((c : Thread nD τ).loc main_arg8)) (m ((c : Thread nD τ).loc main_arg9)) (m ((c : Thread nD τ).loc main_arg10)) (m ((c : Thread nD τ).loc main_arg1)) (m ((c : Thread nD τ).loc main_arg2))) := by
  rw [keep5' m ρ c main_v48 (by decide), keep5 m ρ c main_v48 (by decide)]
  exact ((W10_arr m ρ c 0).trans (((dat4 (V9 m ρ) c).arrAt_in 0 rfl _).trans (A_eq4 (V9 m ρ) c 0))).trans (h2 m ρ hsrc c)

/-- The result buffer ends holding the network of the arguments. -/
theorem result (c : Dev nD) : W13 m ρ c (Proc.devRef .tc main_v61) = (Cert.Layers.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W13_arr m ρ c 5).trans ?_
  rw [RegionValue.region5 (V12 m ρ) c]
  show addf (Cert.Layers.lnrelu (F := Ideal) (W12 m ρ c (Proc.devRef .tc main_v60)) (W12 m ρ c (Proc.devRef .tc main_arg12)) (W12 m ρ c (Proc.devRef .tc main_arg13)) (W12 m ρ c (Proc.devRef .tc main_arg14))) (W12 m ρ c (Proc.devRef .tc main_v48)) = _
  rw [agg3 m ρ hsrc c, h2_at12 m ρ hsrc c, down12 m ρ c main_arg12 (by decide), down12 m ρ c main_arg13 (by decide), down12 m ρ c main_arg14 (by decide),
    arg_at1 m ρ c main_arg12 (by decide), arg_at1 m ρ c main_arg13 (by decide), arg_at1 m ρ c main_arg14 (by decide)]
  rfl

end Chain

end Cert.KernelIdeal.Walk

end
-- ==== Proof.RefRun.lean ====
/-
  The reference program's run, read: every weakly fair execution of @main terminates with the result buffer at
  `Layers.net` of the argument arrays and the arguments unchanged.  Layer by layer: from any contents W, the first
  list of operations leaves `Layers.layer1` of W's arguments in its last buffer, the second and third lists leave
  `Layers.layerRes` of the previous layer's buffer and W's arguments, and no list writes an argument.
-/
import proofs.«414224_j34711925686444_1_alg».proof.Proof.RefOps
import proofs.«414224_j34711925686444_1_alg».proof.Proof.Layers

noncomputable section

namespace Cert.ReferenceIdeal.Run

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

set_option maxRecDepth 8192 in
set_option maxHeartbeats 4000000 in
/-- From any contents `W`, list 1 leaves `layer1` of `W`'s buffers in its last buffer: each operation's result read at
    its own buffer, and the composed term is the layer's by unfolding. -/
theorem value1 (W : Valuation τ sig (Elt F)) :
    after ops1 W (Proc.devRef .tc main_v68)
      = Cert.Layers.layer1 (F := F) (W (Proc.devRef .tc main_arg0)) (W (Proc.devRef .tc main_arg3)) (W (Proc.devRef .tc main_arg4)) (W (Proc.devRef .tc main_arg5)) (W (Proc.devRef .tc main_arg6)) (W (Proc.devRef .tc main_arg1)) (W (Proc.devRef .tc main_arg2)) := by
  after_results_simp
  rfl

set_option maxRecDepth 8192 in
set_option maxHeartbeats 4000000 in
/-- From any contents `W`, list 2 leaves `layerRes` of `W`'s buffers in its last buffer: each operation's result read at
    its own buffer, and the composed term is the layer's by unfolding. -/
theorem value2 (W : Valuation τ sig (Elt F)) :
    after ops2 W (Proc.devRef .tc main_v138)
      = Cert.Layers.layerRes (F := F) (W (Proc.devRef .tc main_v68)) (W (Proc.devRef .tc main_arg7)) (W (Proc.devRef .tc main_arg8)) (W (Proc.devRef .tc main_arg9)) (W (Proc.devRef .tc main_arg10)) (W (Proc.devRef .tc main_arg1)) (W (Proc.devRef .tc main_arg2)) := by
  after_results_simp
  rfl

set_option maxRecDepth 8192 in
set_option maxHeartbeats 4000000 in
/-- From any contents `W`, list 3 leaves `layerRes` of `W`'s buffers in its last buffer: each operation's result read at
    its own buffer, and the composed term is the layer's by unfolding. -/
theorem value3 (W : Valuation τ sig (Elt F)) :
    after ops3 W (Proc.devRef .tc main_v208)
      = Cert.Layers.layerRes (F := F) (W (Proc.devRef .tc main_v138)) (W (Proc.devRef .tc main_arg11)) (W (Proc.devRef .tc main_arg12)) (W (Proc.devRef .tc main_arg13)) (W (Proc.devRef .tc main_arg14)) (W (Proc.devRef .tc main_arg1)) (W (Proc.devRef .tc main_arg2)) := by
  after_results_simp
  rfl

/-- The buffers list 1 writes, in order. -/
def writes1 : List (Ref sig .tc) := [
    main_v0, main_cst, main_v1, main_cst_0, main_v2, main_v3, main_v4, main_cst_1, main_v5, main_v6,
    main_v7, main_c, main_v8, main_v9, main_c_2, main_v10, main_v11, main_v12, main_v13, main_v14,
    main_c_3, main_v15, main_v16, main_c_4, main_v17, main_v18, main_v19, main_v20, main_v21, main_c_5,
    main_v22, main_v23, main_c_6, main_v24, main_v25, main_v26, main_v27, main_v28, main_v29, main_v30,
    main_v31, main_v32, main_cst_7, main_v33, main_v34, main_v35, main_v36, main_v37, main_v38, main_v39,
    main_v40, main_v41, main_v42, main_v43, main_cst_8, main_v44, main_v45, main_cst_9, main_v46, main_v47,
    main_v48, main_v49, main_v50, main_cst_10, main_v51, main_v52, main_cst_11, main_v53, main_v54, main_v55,
    main_v56, main_v57, main_v58, main_v59, main_cst_12, main_v60, main_v61, main_v62, main_v63, main_v64,
    main_v65, main_v66, main_v67, main_call0_cst, main_call0_v0, main_v68 ]

set_option maxRecDepth 8192 in
set_option maxHeartbeats 4000000 in
theorem writes1_sub : (ops1 : List (HloOp τ sig (Elt F))).Forall fun op =>
    op.writes ⊆ (writes1.map (Proc.devRef (τ := τ) .tc)).toFinset := by
  simp only [List.Forall, nullary_writes, unary_writes, binary_writes, ternary_writes, Finset.singleton_subset_iff,
    List.mem_toFinset]
  repeat' apply And.intro
  all_goals exact List.mem_map_of_mem (by decide)

/-- List 1 leaves every buffer it does not write as it was. -/
theorem keep1 (W : Valuation τ sig (Elt F)) {r : Ref sig .tc} (hr : r ∉ writes1) :
    after ops1 W (Proc.devRef .tc r) = W (Proc.devRef .tc r) :=
  after_of_writes_sub ops1 W writes1_sub hr

/-- The buffers list 2 writes, in order. -/
def writes2 : List (Ref sig .tc) := [
    main_v69, main_cst_13, main_v70, main_cst_14, main_v71, main_v72, main_v73, main_cst_15, main_v74, main_v75,
    main_v76, main_c_16, main_v77, main_v78, main_c_17, main_v79, main_v80, main_v81, main_v82, main_v83,
    main_c_18, main_v84, main_v85, main_c_19, main_v86, main_v87, main_v88, main_v89, main_v90, main_c_20,
    main_v91, main_v92, main_c_21, main_v93, main_v94, main_v95, main_v96, main_v97, main_v98, main_v99,
    main_v100, main_v101, main_cst_22, main_v102, main_v103, main_v104, main_v105, main_v106, main_v107, main_v108,
    main_v109, main_v110, main_v111, main_v112, main_cst_23, main_v113, main_v114, main_cst_24, main_v115, main_v116,
    main_v117, main_v118, main_v119, main_cst_25, main_v120, main_v121, main_cst_26, main_v122, main_v123, main_v124,
    main_v125, main_v126, main_v127, main_v128, main_cst_27, main_v129, main_v130, main_v131, main_v132, main_v133,
    main_v134, main_v135, main_v136, main_call1_cst, main_call1_v0, main_v137, main_v138 ]

set_option maxRecDepth 8192 in
set_option maxHeartbeats 4000000 in
theorem writes2_sub : (ops2 : List (HloOp τ sig (Elt F))).Forall fun op =>
    op.writes ⊆ (writes2.map (Proc.devRef (τ := τ) .tc)).toFinset := by
  simp only [List.Forall, nullary_writes, unary_writes, binary_writes, ternary_writes, Finset.singleton_subset_iff,
    List.mem_toFinset]
  repeat' apply And.intro
  all_goals exact List.mem_map_of_mem (by decide)

/-- List 2 leaves every buffer it does not write as it was. -/
theorem keep2 (W : Valuation τ sig (Elt F)) {r : Ref sig .tc} (hr : r ∉ writes2) :
    after ops2 W (Proc.devRef .tc r) = W (Proc.devRef .tc r) :=
  after_of_writes_sub ops2 W writes2_sub hr

/-- The buffers list 3 writes, in order. -/
def writes3 : List (Ref sig .tc) := [
    main_v139, main_cst_28, main_v140, main_cst_29, main_v141, main_v142, main_v143, main_cst_30, main_v144, main_v145,
    main_v146, main_c_31, main_v147, main_v148, main_c_32, main_v149, main_v150, main_v151, main_v152, main_v153,
    main_c_33, main_v154, main_v155, main_c_34, main_v156, main_v157, main_v158, main_v159, main_v160, main_c_35,
    main_v161, main_v162, main_c_36, main_v163, main_v164, main_v165, main_v166, main_v167, main_v168, main_v169,
    main_v170, main_v171, main_cst_37, main_v172, main_v173, main_v174, main_v175, main_v176, main_v177, main_v178,
    main_v179, main_v180, main_v181, main_v182, main_cst_38, main_v183, main_v184, main_cst_39, main_v185, main_v186,
    main_v187, main_v188, main_v189, main_cst_40, main_v190, main_v191, main_cst_41, main_v192, main_v193, main_v194,
    main_v195, main_v196, main_v197, main_v198, main_cst_42, main_v199, main_v200, main_v201, main_v202, main_v203,
    main_v204, main_v205, main_v206, main_call2_cst, main_call2_v0, main_v207, main_v208 ]

set_option maxRecDepth 8192 in
set_option maxHeartbeats 4000000 in
theorem writes3_sub : (ops3 : List (HloOp τ sig (Elt F))).Forall fun op =>
    op.writes ⊆ (writes3.map (Proc.devRef (τ := τ) .tc)).toFinset := by
  simp only [List.Forall, nullary_writes, unary_writes, binary_writes, ternary_writes, Finset.singleton_subset_iff,
    List.mem_toFinset]
  repeat' apply And.intro
  all_goals exact List.mem_map_of_mem (by decide)

/-- List 3 leaves every buffer it does not write as it was. -/
theorem keep3 (W : Valuation τ sig (Elt F)) {r : Ref sig .tc} (hr : r ∉ writes3) :
    after ops3 W (Proc.devRef .tc r) = W (Proc.devRef .tc r) :=
  after_of_writes_sub ops3 W writes3_sub hr

/-- An argument is written by no list. -/
theorem keep (W : Valuation τ sig (Elt F)) {r : Ref sig .tc} (h1 : r ∉ writes1) (h2 : r ∉ writes2) (h3 : r ∉ writes3) :
    after ops3 (after ops2 (after ops1 W)) (Proc.devRef .tc r) = W (Proc.devRef .tc r) :=
  (keep3 _ h3).trans ((keep2 _ h2).trans (keep1 _ h1))

/-- The three lists in sequence leave `Layers.net` of the arguments in the last buffer: each layer's value, its
    arguments walked back through the earlier lists, none of which writes them. -/
theorem net_after (W : Valuation τ sig (Elt F)) :
    after ops3 (after ops2 (after ops1 W)) (Proc.devRef .tc main_v208)
      = Cert.Layers.net (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  rw [value3, value2, value1,
    keep2 _ (r := main_arg11) (by decide), keep2 _ (r := main_arg12) (by decide), keep2 _ (r := main_arg13) (by decide),
    keep2 _ (r := main_arg14) (by decide), keep2 _ (r := main_arg1) (by decide), keep2 _ (r := main_arg2) (by decide),
    keep1 _ (r := main_arg7) (by decide), keep1 _ (r := main_arg8) (by decide), keep1 _ (r := main_arg9) (by decide),
    keep1 _ (r := main_arg10) (by decide), keep1 _ (r := main_arg11) (by decide), keep1 _ (r := main_arg12) (by decide),
    keep1 _ (r := main_arg13) (by decide), keep1 _ (r := main_arg14) (by decide), keep1 _ (r := main_arg1) (by decide),
    keep1 _ (r := main_arg2) (by decide)]
  rfl

/-- The run of the reference, read as the three layers of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v208)
        = Cert.Layers.net (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
      ⟨(h c main_v208).trans (net_after (launchContents m c)),
       (h c main_arg0).trans (keep (launchContents m c) (by decide) (by decide) (by decide)),
       (h c main_arg1).trans (keep (launchContents m c) (by decide) (by decide) (by decide)),
       (h c main_arg2).trans (keep (launchContents m c) (by decide) (by decide) (by decide)),
       (h c main_arg3).trans (keep (launchContents m c) (by decide) (by decide) (by decide)),
       (h c main_arg4).trans (keep (launchContents m c) (by decide) (by decide) (by decide)),
       (h c main_arg5).trans (keep (launchContents m c) (by decide) (by decide) (by decide)),
       (h c main_arg6).trans (keep (launchContents m c) (by decide) (by decide) (by decide)),
       (h c main_arg7).trans (keep (launchContents m c) (by decide) (by decide) (by decide)),
       (h c main_arg8).trans (keep (launchContents m c) (by decide) (by decide) (by decide)),
       (h c main_arg9).trans (keep (launchContents m c) (by decide) (by decide) (by decide)),
       (h c main_arg10).trans (keep (launchContents m c) (by decide) (by decide) (by decide)),
       (h c main_arg11).trans (keep (launchContents m c) (by decide) (by decide) (by decide)),
       (h c main_arg12).trans (keep (launchContents m c) (by decide) (by decide) (by decide)),
       (h c main_arg13).trans (keep (launchContents m c) (by decide) (by decide) (by decide)),
       (h c main_arg14).trans (keep (launchContents m c) (by decide) (by decide) (by decide))⟩)
    (Ops.run_after m ρ)

end Cert.ReferenceIdeal.Run

end
-- ==== Proof.PreSrc.lean ====
/-
  The precondition's last conjunct, decoded: where the printed predicate is all ones, every source index e satisfies
  0 ≤ src e < 50000 as signed 32-bit words.  The predicate is a chain of conjunctions; its last factor is the
  and-reduction over the edges of (src ≥ 0) ∧ (src < 50000), and a conjunction of bits is one only if both are.
-/
import proofs.«414224_j34711925686444_1_alg».proof.Pre_finite_inputs
import proofs.«414224_j34711925686444_1_alg».proof.Proof.Gen.Pre_finite_inputs
import Idealize.ShloMosaic.Lib.ValueIdx
import Idealize.ShloMosaic.Lib.StableHlo.Predicate
import Idealize.ShloMosaic.Lib.ReduceAll

noncomputable section

namespace Cert.Pre_finite_inputs.Decode

open Idealize.ShloMosaic Idealize.ShloMosaic.ValueIdx Cert.Pre_finite_inputs

variable {F : FTy → Type} [FloatOps F]

/-- Where the precondition holds, every source index lies in [0, 50000). -/
theorem src_in_range (a0 : FVec F S50000x128 .f32) (a1 a2 : IVec S640000 32) (a3 : FVec F S128x128 .f32) (a4 a5 a6 : FVec F S128 .f32)
    (a7 : FVec F S128x128 .f32) (a8 a9 a10 : FVec F S128 .f32) (a11 : FVec F S128x128 .f32) (a12 a13 a14 : FVec F S128 .f32)
    (h : fn (F := F) a0 a1 a2 a3 a4 a5 a6 a7 a8 a9 a10 a11 a12 a13 a14 = (fun _ => 1#1)) :
    ∀ e : Fin 640000, IntOp.cmpi .sge (a1 (ix1 e)) 0#32 = 1#1 ∧ IntOp.cmpi .slt (a1 (ix1 e)) 50000#32 = 1#1 := by
  have h0 := congrFun h ix0
  unfold fn fn_part1 fn_part2 fn_part3 fn_part4 at h0
  dsimp only at h0
  have h1 := (IntOp.andi_eq_one.1 h0).2
  haveI : Subsingleton S_.Idx := ⟨fun a b => funext fun d => d.elim0⟩
  intro e
  have h2 := Host.reduce_andi_all _ _ _ _ _ h1 (ix1 e)
  have h3 := IntOp.andi_eq_one.1 h2
  exact h3

end Cert.Pre_finite_inputs.Decode

end
-- ==== Proof.lean ====
/-
  The certificate of the three-layer graph convolution: the kernel program (three matrix-product launches and three
  normalisation launches among host gathers and scatters) against its jnp reference, over the extended reals, under
  the precondition that every float input is finite and every source index lies in [0, 50000).

  Both programs compute `Layers.net` of the arguments.  The reference: its 260 host operations, read layer by layer
  (RefRun).  The kernel: each launch leaves a whole-array layer function of what it found (RegionMM: the dense product,
  block by block the rows of `h · W`; RegionLN: LayerNorm row by row, so block by block too), the host stretches
  between the launches are the reference's operations (the guarded gather keeps every row where the source indices
  are in range: Take, PreSrc, KernelHost), and buffers nobody writes keep their contents (KernelKeep, KernelChain); the run
  with the result named is KernelRun.  No law of arithmetic beyond reading both sides at an index is needed, so finiteness is not used.
  The three frames: the two kernel programs' are the generated frame certificates, the reference's is its run with the
  result dropped.  The idealization rewrote nothing, so `preserves` is trivial.
-/
import proofs.«414224_j34711925686444_1_alg».proof.Defs
import proofs.«414224_j34711925686444_1_alg».proof.Proof.Gen.Kernel
import proofs.«414224_j34711925686444_1_alg».proof.Proof.Gen.Kernel.Skeleton
import proofs.«414224_j34711925686444_1_alg».proof.Proof.Gen.Kernel.Launch
import proofs.«414224_j34711925686444_1_alg».proof.Proof.Gen.Kernel.Points
import proofs.«414224_j34711925686444_1_alg».proof.Proof.Gen.Kernel.Frame
import proofs.«414224_j34711925686444_1_alg».proof.Proof.Gen.KernelIdeal
import proofs.«414224_j34711925686444_1_alg».proof.Proof.Gen.KernelIdeal.Skeleton
import proofs.«414224_j34711925686444_1_alg».proof.Proof.Gen.KernelIdeal.Launch
import proofs.«414224_j34711925686444_1_alg».proof.Proof.Gen.KernelIdeal.Points
import proofs.«414224_j34711925686444_1_alg».proof.Proof.Gen.KernelIdeal.Frame
import proofs.«414224_j34711925686444_1_alg».proof.Proof.Gen.ReferenceIdeal
import proofs.«414224_j34711925686444_1_alg».proof.Proof.Gen.Pre_finite_inputs
import proofs.«414224_j34711925686444_1_alg».proof.Proof.KernelRun
import proofs.«414224_j34711925686444_1_alg».proof.Proof.KernelChain
import proofs.«414224_j34711925686444_1_alg».proof.Proof.RefRun
import proofs.«414224_j34711925686444_1_alg».proof.Proof.PreSrc
import Idealize.ShloMosaic.Adequacy
import Idealize.ShloMosaic.Init

noncomputable section

namespace Cert.Proof

open Idealize.ShloMosaic Idealize.SL.Sem

/-- The kernel program runs and leaves its arguments alone: the generated frame certificate. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Run.run (F := Ideal) m ρ)

/-- Both programs end with `Layers.net` of the arguments in their result buffers. -/
theorem algebraic : Cert.algebraic_KernelIdeal_ReferenceIdeal := by
  intro m ρ m' ρ' hpre hagree
  have hsrc : ∀ (c : Dev Cert.KernelIdeal.nD) (e : Fin 640000),
      IntOp.cmpi .sge (m ((c.tc : Thread Cert.KernelIdeal.nD Cert.KernelIdeal.τ).loc Cert.KernelIdeal.main_arg1) (ValueIdx.ix1 e)) 0#32 = 1#1
        ∧ IntOp.cmpi .slt (m ((c.tc : Thread Cert.KernelIdeal.nD Cert.KernelIdeal.τ).loc Cert.KernelIdeal.main_arg1) (ValueIdx.ix1 e)) 50000#32 = 1#1 :=
    fun c => Cert.Pre_finite_inputs.Decode.src_in_range (F := Ideal) _ _ _ _ _ _ _ _ _ _ _ _ _ _ _ (hpre c)
  refine ⟨fun c => Cert.Layers.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Walk.result m ρ hsrc c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Run.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
